-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S32000x512 : Shape := ⟨2, ![32000, 512]⟩
abbrev S2048 : Shape := ⟨1, ![2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_v13 : IVec S_ 1) (main_v16 : IVec S32000x512 1) : IVec S_ 1 :=
  let main_c_5 : IVec S_ 1 := constantI S_ 1 1#1
  let main_v17 : IVec S_ 1 := (fun x v => Host.reduce IntOp.andi x v reducesTo_S32000x512_S_d0_1 h_S_) main_v16 main_c_5
  let main_v18 : IVec S_ 1 := andi main_v13 main_v17
  let main_c_6 : IVec S_ 32 := constantI S_ 32 4294967196#32
  let main_v19 : IVec S2048 32 := broadcastInDim S2048 ![] bcast_S_S2048 main_c_6
  let main_v20 : IVec S2048 1 := cmpi .eq main_arg4 main_v19
  let main_c_7 : IVec S_ 32 := constantI S_ 32 0#32
  let main_v21 : IVec S2048 32 := broadcastInDim S2048 ![] bcast_S_S2048 main_c_7
  let main_v22 : IVec S2048 1 := cmpi .sge main_arg4 main_v21
  let main_c_8 : IVec S_ 32 := constantI S_ 32 32000#32
  let main_v23 : IVec S2048 32 := broadcastInDim S2048 ![] bcast_S_S2048 main_c_8
  let main_v24 : IVec S2048 1 := cmpi .slt main_arg4 main_v23
  let main_v25 : IVec S2048 1 := andi main_v22 main_v24
  let main_v26 : IVec S2048 1 := ori main_v20 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v18 main_v27
  main_v28

def fn {F : FTy → Type} [FloatOps F] (main_arg0 : FVec F S2048x512 .f32) (main_arg1 : FVec F S32000x512 .f32) (main_arg2 : FVec F S2048x512 .f32) (main_arg3 : FVec F S32000x512 .f32) (main_arg4 : IVec S2048 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S32000x512 .f32 := Host.absf main_arg1
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S32000x512 .f32 := Host.absf main_arg3
  let main_cst_4 : FVec F S_ .f32 := constant S_ .f32 0x7F800000#32
  let main_v15 : FVec F S32000x512 .f32 := broadcastInDim S32000x512 ![] bcast_S_S32000x512 main_cst_4
  let main_v16 : IVec S32000x512 1 := cmpf .olt main_v14 main_v15
  fn_part1 (F := F) main_arg4 main_v13 main_v16
-- ==== Kernel.lean ====
abbrev S2048x512 : Shape := ⟨2, ![2048, 512]⟩
abbrev S32000x512 : Shape := ⟨2, ![32000, 512]⟩
abbrev S2048 : Shape := ⟨1, ![2048]⟩
abbrev S2048x1 : Shape := ⟨2, ![2048, 1]⟩
abbrev S1024x512 : Shape := ⟨2, ![1024, 512]⟩
abbrev S1280x512 : Shape := ⟨2, ![1280, 512]⟩
abbrev S1024x1 : Shape := ⟨2, ![1024, 1]⟩
abbrev S1024x1280 : Shape := ⟨2, ![1024, 1280]⟩
abbrev S1024 : Shape := ⟨1, ![1024]⟩
abbrev S_ : Shape := ⟨0, ![]⟩

abbrev nBuf : Space → Nat
  | .hbm => 13
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S32000x512, .f32⟩
  | .hbm, ⟨2, _⟩ => ⟨S2048x512, .f32⟩
  | .hbm, ⟨3, _⟩ => ⟨S32000x512, .f32⟩
  | .hbm, ⟨4, _⟩ => ⟨S2048, .i32⟩
  | .hbm, ⟨5, _⟩ => ⟨S2048x1, .i32⟩
  | .hbm, ⟨6, _⟩ => ⟨S2048x512, .bf16⟩
  | .hbm, ⟨7, _⟩ => ⟨S32000x512, .bf16⟩
  | .hbm, ⟨8, _⟩ => ⟨S2048x512, .bf16⟩
  | .hbm, ⟨9, _⟩ => ⟨S32000x512, .bf16⟩
  | .hbm, ⟨10, _⟩ => ⟨S2048x1, .f32⟩
  | .hbm, ⟨11, _⟩ => ⟨S_, .f32⟩
  | .hbm, ⟨12, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1280x512, .bf16⟩
  | .local _ .vmem, ⟨3, _⟩ => ⟨S1280x512, .bf16⟩
  | .local _ .vmem, ⟨4, _⟩ => ⟨S1024x512, .bf16⟩
  | .local _ .vmem, ⟨5, _⟩ => ⟨S1024x512, .bf16⟩
  | .local _ .vmem, ⟨6, _⟩ => ⟨S1280x512, .bf16⟩
  | .local _ .vmem, ⟨7, _⟩ => ⟨S1280x512, .bf16⟩
  | .local _ .vmem, ⟨8, _⟩ => ⟨S1024x1, .i32⟩
  | .local _ .vmem, ⟨9, _⟩ => ⟨S1024x1, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v74 : BitVec 1 := Scalar.cmpi .eq arg1 c24_i32
  let v75 : BitVec 32 := Scalar.extui v74
  let c0_i32_42 : BitVec 32 := 0#32
  let v76 : BitVec 1 := Scalar.cmpi .ne v75 c0_i32_42
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2048_S2048x1 : S2048.ShapeCasts S2048x1
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  reducesTo_S2048x1_S_d0_1 : S2048x1.ReducesTo [0, 1] S_
  h_S_ : 0 < S_.numel
  dot_S1024x512_S1280x512_S1024x1280_1_1_0_0_n_n_wf : DotDims.WF S1024x512 S1280x512 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .bf16 = 32 ∨ (Rect.block (s := S2048x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S32000x512.size a
  hwx0_1 : ∀ i : grid0.Coords, EltTy.bits .bf16 = 32 ∨ (Rect.block (s := S32000x512) S1280x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x512.size a
  hwx0_2 : ∀ i : grid0.Coords, EltTy.bits .bf16 = 32 ∨ (Rect.block (s := S2048x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S32000x512.size a
  hwx0_3 : ∀ i : grid0.Coords, EltTy.bits .bf16 = 32 ∨ (Rect.block (s := S32000x512) S1280x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .i32 = 32 ∨ (Rect.block (s := S2048x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)

variable [Facts₀]

def dot_S1024x512_S1280x512_S1024x1280_1_1_0_0_n_n : DotDims S1024x512 S1280x512 S1024x1280 where
  lhsContracting := [1]
  rhsContracting := [1]
  lhsNonContracting := [0]
  rhsNonContracting := [0]
  lhsBatch := []
  rhsBatch := []
  wf := dot_S1024x512_S1280x512_S1024x1280_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1280x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x512 : Shape := ⟨2, ![2048, 512]⟩
abbrev S32000x512 : Shape := ⟨2, ![32000, 512]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S32000x512, .f32⟩
  | .hbm, ⟨2, _⟩ => ⟨S2048x512, .f32⟩
  | .hbm, ⟨3, _⟩ => ⟨S32000x512, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x32000, .f32⟩
  | .hbm, ⟨14, _⟩ => ⟨S2048x32000, .f32⟩
  | .hbm, ⟨15, _⟩ => ⟨S2048x32000, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x1, .f32⟩
  | .hbm, ⟨20, _⟩ => ⟨S2048x32000, .f32⟩
  | .hbm, ⟨21, _⟩ => ⟨S2048x32000, .f32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S2048x1x1, .i32⟩
  | .hbm, ⟨38, _⟩ => ⟨S1, .i32⟩
  | .hbm, ⟨39, _⟩ => ⟨S_, .i32⟩
  | .hbm, ⟨40, _⟩ => ⟨S2048x1x1, .i32⟩
  | .hbm, ⟨41, _⟩ => ⟨S2048x1x1, .i1⟩
  | .hbm, ⟨42, _⟩ => ⟨S1x1x1, .i32⟩
  | .hbm, ⟨43, _⟩ => ⟨S2048x1x1, .i32⟩
  | .hbm, ⟨44, _⟩ => ⟨S2048x1x1, .i1⟩
  | .hbm, ⟨45, _⟩ => ⟨S2048x1x1, .i1⟩
  | .hbm, ⟨46, _⟩ => ⟨S_, .i1⟩
  | .hbm, ⟨47, _⟩ => ⟨S2048x1, .i1⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x32000, .f32⟩
  | .hbm, ⟨64, _⟩ => ⟨S2048x32000, .f32⟩
  | .hbm, ⟨65, _⟩ => ⟨S_, .f32⟩
  | .hbm, ⟨66, _⟩ => ⟨S2048x32000, .f32⟩
  | .hbm, ⟨67, _⟩ => ⟨S2048x32000, .f32⟩
  | .hbm, ⟨68, _⟩ => ⟨S2048x32000, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S2048x32000, .f32⟩
  | .hbm, ⟨77, _⟩ => ⟨S2048x32000, .f32⟩
  | .hbm, ⟨78, _⟩ => ⟨S2048x32000, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S2048x32000, .f32⟩
  | .hbm, ⟨87, _⟩ => ⟨S2048x32000, .f32⟩
  | .hbm, ⟨88, _⟩ => ⟨S2048x32000, .f32⟩
  | .hbm, ⟨89, _⟩ => ⟨S_, .f32⟩
  | .hbm, ⟨90, _⟩ => ⟨S2048, .f32⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v5 : Ref sig .tc := ⟨.hbm, 28, rfl⟩
abbrev main_v6 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_cst_4 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_cst_5 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_cst_6 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_7 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_8 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_9 : Ref sig .tc := ⟨.hbm, 89, rfl⟩
abbrev main_v34 : Ref sig .tc := ⟨.hbm, 90, rfl⟩
abbrev main_cst_10 : Ref sig .tc := ⟨.hbm, 91, rfl⟩
abbrev main_v35 : Ref sig .tc := ⟨.hbm, 92, rfl⟩
abbrev main_v36 : Ref sig .tc := ⟨.hbm, 93, rfl⟩
abbrev main_cst_11 : Ref sig .tc := ⟨.hbm, 94, rfl⟩
abbrev main_v37 : Ref sig .tc := ⟨.hbm, 95, rfl⟩
abbrev main_cst_12 : Ref sig .tc := ⟨.hbm, 96, rfl⟩
abbrev main_v38 : Ref sig .tc := ⟨.hbm, 97, rfl⟩
abbrev main_cst_13 : Ref sig .tc := ⟨.hbm, 98, rfl⟩
abbrev main_v39 : Ref sig .tc := ⟨.hbm, 99, rfl⟩
abbrev main_cst_14 : Ref sig .tc := ⟨.hbm, 100, rfl⟩
abbrev main_v40 : Ref sig .tc := ⟨.hbm, 101, rfl⟩
abbrev main_cst_15 : Ref sig .tc := ⟨.hbm, 102, rfl⟩
abbrev main_v41 : Ref sig .tc := ⟨.hbm, 103, rfl⟩
abbrev main_v42 : Ref sig .tc := ⟨.hbm, 104, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  bcast_S_S2048x32000 : S_.BroadcastsInDim S2048x32000 (![] : Fin 0 → Fin S2048x32000.rank)
  dot_S2048x512_S32000x512_S2048x32000_1_1_0_0_n_n_wf : DotDims.WF S2048x512 S32000x512 S2048x32000 [1] [1] [0] [0] [] []
  gather_S2048x32000_S2048x1x1_S2048x1_n_1_0_0_1_2_11_wf : GatherDims.WF S2048x32000 S2048x1x1 S2048x1 [] [1] [0] [1] [0] 2 ![1, 1]

variable [Facts₀]

def dot_S2048x512_S32000x512_S2048x32000_1_1_0_0_n_n : DotDims S2048x512 S32000x512 S2048x32000 where
  lhsContracting := [1]
  rhsContracting := [1]
  lhsNonContracting := [0]
  rhsNonContracting := [0]
  lhsBatch := []
  rhsBatch := []
  wf := dot_S2048x512_S32000x512_S2048x32000_1_1_0_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.KPieces.lean ====
/-
  What each of the kernel's three control cases leaves in the six carried row vectors and (in the last
  chunk's case) in the output block, as the body's arithmetic applied to the blocks loaded and to what the
  vectors held before: the first chunk's case stores the start values first and updates those; the other two
  update what the previous chunk left; the last chunk's case also combines the updated vectors into the output.
-/
import proofs.«420721_j22101901705595_2_alg».proof.Proof.Gen.KernelIdeal.Frame
import Idealize.ShloMosaic.Lib.Pipeline.Value
import Idealize.ShloMosaic.Lib.Tactic

noncomputable section

namespace Cert.KernelIdeal.KVal

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

variable (c : Dev nD) (i : grid0.Coords)
  (a2 : Memref sig .tc .vmem S1024x512 .bf16) (h2 : a2.IsWhole) (a3 : Memref sig .tc .vmem S1280x512 .bf16) (h3 : a3.IsWhole)
  (a4 : Memref sig .tc .vmem S1024x512 .bf16) (h4 : a4.IsWhole) (a5 : Memref sig .tc .vmem S1280x512 .bf16) (h5 : a5.IsWhole)
  (a6 : Memref sig .tc .vmem S1024x1 .i32) (h6 : a6.IsWhole) (a7 : Memref sig .tc .vmem S1024x1 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x1 .f32) (h10 : a10.IsWhole) (a11 : Memref sig .tc .vmem S1024x1 .f32) (h11 : a11.IsWhole)
  (a12 : Memref sig .tc .vmem S1024x1 .f32) (h12 : a12.IsWhole) (a13 : Memref sig .tc .vmem S1024x1 .f32) (h13 : a13.IsWhole)
  (x0 : Vec F S1024x512 .bf16) (x1 : Vec F S1280x512 .bf16) (x2 : Vec F S1024x512 .bf16) (x3 : Vec F S1280x512 .bf16)
  (x4 : Vec F S1024x1 .i32)

/-! ## The first chunk's case: start values, then the update -/

theorem sA0 (hc0 : cond0_0 i) (hc1 : ¬cond0_1 i) :
    sout0_A_0 c i a2 h2 a3 h3 a4 h4 a5 h5 a6 h6 a7 h7 a8 h8 a9 h9 a10 h10 a11 h11 a12 h12 a13 h13 hc0 hc1 x0 x1 x2 x3 x4 = k0_pay13 x0 x1 k0_pay3 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sA1 (hc0 : cond0_0 i) (hc1 : ¬cond0_1 i) :
    sout0_A_1 c i a2 h2 a3 h3 a4 h4 a5 h5 a6 h6 a7 h7 a8 h8 a9 h9 a10 h10 a11 h11 a12 h12 a13 h13 hc0 hc1 x0 x1 x2 x3 x4 = k0_pay12 x0 x1 k0_pay3 k0_pay4 := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sA2 (hc0 : cond0_0 i) (hc1 : ¬cond0_1 i) :
    sout0_A_2 c i a2 h2 a3 h3 a4 h4 a5 h5 a6 h6 a7 h7 a8 h8 a9 h9 a10 h10 a11 h11 a12 h12 a13 h13 hc0 hc1 x0 x1 x2 x3 x4 = k0_pay15 (BitVec.ofNat 32 (i 1).val) (k0_pay9 x0 x1) x4 k0_pay5 := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sA3 (hc0 : cond0_0 i) (hc1 : ¬cond0_1 i) :
    sout0_A_3 c i a2 h2 a3 h3 a4 h4 a5 h5 a6 h6 a7 h7 a8 h8 a9 h9 a10 h10 a11 h11 a12 h12 a13 h13 hc0 hc1 x0 x1 x2 x3 x4 = k0_pay16 (k0_pay9 x0 x1) (k0_pay10 x2 x3) k0_pay6 := by
  unfold sout0_A_3
  rw [View.read_writes_eq_canon _ _ _ (scover0_A_3 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sA4 (hc0 : cond0_0 i) (hc1 : ¬cond0_1 i) :
    sout0_A_4 c i a2 h2 a3 h3 a4 h4 a5 h5 a6 h6 a7 h7 a8 h8 a9 h9 a10 h10 a11 h11 a12 h12 a13 h13 hc0 hc1 x0 x1 x2 x3 x4 = k0_pay17 (k0_pay9 x0 x1) k0_pay7 := by
  unfold sout0_A_4
  rw [View.read_writes_eq_canon _ _ _ (scover0_A_4 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sA5 (hc0 : cond0_0 i) (hc1 : ¬cond0_1 i) :
    sout0_A_5 c i a2 h2 a3 h3 a4 h4 a5 h5 a6 h6 a7 h7 a8 h8 a9 h9 a10 h10 a11 h11 a12 h12 a13 h13 hc0 hc1 x0 x1 x2 x3 x4 = k0_pay1 k0_pay8 (k0_pay18 (k0_pay10 x2 x3)) := by
  unfold sout0_A_5
  rw [View.read_writes_eq_canon _ _ _ (scover0_A_5 c i a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

/-! ## A middle chunk's case: the update of what the chunk before left -/

variable (xs0 xs1 xs2 xs3 xs4 xs5 : Vec F S1024x1 .f32)

theorem sB0 (hc0 : ¬cond0_0 i) (hc1 : ¬cond0_1 i) :
    sout0_B_0 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay13 x0 x1 xs0 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sB1 (hc0 : ¬cond0_0 i) (hc1 : ¬cond0_1 i) :
    sout0_B_1 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay12 x0 x1 xs0 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sB2 (hc0 : ¬cond0_0 i) (hc1 : ¬cond0_1 i) :
    sout0_B_2 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay15 (BitVec.ofNat 32 (i 1).val) (k0_pay9 x0 x1) x4 xs2 := by
  unfold sout0_B_2
  rw [View.read_writes_eq_canon _ _ _ (scover0_B_2 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sB3 (hc0 : ¬cond0_0 i) (hc1 : ¬cond0_1 i) :
    sout0_B_3 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay16 (k0_pay9 x0 x1) (k0_pay10 x2 x3) xs3 := by
  unfold sout0_B_3
  rw [View.read_writes_eq_canon _ _ _ (scover0_B_3 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sB4 (hc0 : ¬cond0_0 i) (hc1 : ¬cond0_1 i) :
    sout0_B_4 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay17 (k0_pay9 x0 x1) xs4 := by
  unfold sout0_B_4
  rw [View.read_writes_eq_canon _ _ _ (scover0_B_4 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sB5 (hc0 : ¬cond0_0 i) (hc1 : ¬cond0_1 i) :
    sout0_B_5 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay1 xs5 (k0_pay18 (k0_pay10 x2 x3)) := by
  unfold sout0_B_5
  rw [View.read_writes_eq_canon _ _ _ (scover0_B_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

/-! ## The last chunk's case: the same update, and the output block from the updated vectors -/

theorem sC0 (hc0 : ¬cond0_0 i) (hc1 : cond0_1 i) :
    sout0_C_0 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay13 x0 x1 xs0 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sC1 (hc0 : ¬cond0_0 i) (hc1 : cond0_1 i) :
    sout0_C_1 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay12 x0 x1 xs0 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sC2 (hc0 : ¬cond0_0 i) (hc1 : cond0_1 i) :
    sout0_C_2 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay15 (BitVec.ofNat 32 (i 1).val) (k0_pay9 x0 x1) x4 xs2 := by
  unfold sout0_C_2
  rw [View.read_writes_eq_canon _ _ _ (scover0_C_2 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sC3 (hc0 : ¬cond0_0 i) (hc1 : cond0_1 i) :
    sout0_C_3 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay16 (k0_pay9 x0 x1) (k0_pay10 x2 x3) xs3 := by
  unfold sout0_C_3
  rw [View.read_writes_eq_canon _ _ _ (scover0_C_3 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sC4 (hc0 : ¬cond0_0 i) (hc1 : cond0_1 i) :
    sout0_C_4 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay17 (k0_pay9 x0 x1) xs4 := by
  unfold sout0_C_4
  rw [View.read_writes_eq_canon _ _ _ (scover0_C_4 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem sC5 (hc0 : ¬cond0_0 i) (hc1 : cond0_1 i) :
    sout0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5 = k0_pay1 xs5 (k0_pay18 (k0_pay10 x2 x3)) := by
  unfold sout0_C_5
  rw [View.read_writes_eq_canon _ _ _ (scover0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

theorem oC5 (hc0 : ¬cond0_0 i) (hc1 : cond0_1 i) :
    out0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5
      = k0_pay2 (k0_pay14 x4) (k0_pay13 x0 x1 xs0) (k0_pay12 x0 x1 xs0 xs1) (k0_pay15 (BitVec.ofNat 32 (i 1).val) (k0_pay9 x0 x1) x4 xs2) (k0_pay17 (k0_pay9 x0 x1) xs4) (k0_pay1 xs5 (k0_pay18 (k0_pay10 x2 x3))) (k0_pay16 (k0_pay9 x0 x1) (k0_pay10 x2 x3) xs3) := by
  unfold out0_C_5
  rw [View.read_writes_eq_canon _ _ _ (cover0_C_5 c i a2 h2 a3 h3 a4 h4 a5 h5 a6 h6 a7 h7 a8 h8 a9 h9 a10 h10 a11 h11 a12 h12 a13 h13 hc0 hc1 x0 x1 x2 x3 x4 xs0 xs1 xs2 xs3 xs4 xs5)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x1) hz2, View.ld_unit_zero (S := S1024x512) hz2, View.ld_unit_zero (S := S1280x512) hz2, View.readCov_unit_zero (S := S1024x1) _ hz2]

end Cert.KernelIdeal.KVal

end
-- ==== Proof.Spec.lean ====
/-
  The mathematics both programs compute, stated once over plain coordinate functions.

  A row of student logits s and of teacher logits t (32000 columns each) and a label ℓ give one row's loss:
  a cross-entropy term  logsumexp(s) - s[ℓ]  (zero when ℓ is the ignore index) and a cosine term
  1 - <s,t> / (max(|s|, ε) · max(|t|, ε)).

  The kernel walks the 32000 columns in 25 chunks of 1280 and carries six numbers per row: a running maximum
  m (started at a large negative finite number), the sum z of exp(s - m) rescaled whenever m grows, the
  label's logit g picked by an equality test on the column number, and the plain sums of s·t, s·s and t·t
  (`step`, `stAt`); after the last chunk it combines them (`fin`). The reference takes the whole-row maximum, the whole-row
  log-softmax, reads it at the label, normalises both rows and sums their product (`rHard`, `rCos`).
  The total is the mean over the 2048 rows of half the cross-entropy term plus a quarter of the cosine term.
-/
import Idealize.ShloMosaic.PureOps.Ideal
import Idealize.ShloMosaic.Lib.ValueIdx

noncomputable section

namespace Cert.Spec

open Idealize.ShloMosaic

/-! ## The literals, as the extended reals their patterns denote -/

/-- The kernel's starting value of the running maximum: about -2.38e38, finite. -/
def negBig : EReal := Ideal.ofBits .f32 0xFF333332#32
def zero : EReal := Ideal.ofBits .f32 0x00000000#32
def one : EReal := Ideal.ofBits .f32 0x3F800000#32
def half : EReal := Ideal.ofBits .f32 0x3F000000#32
/-- The norm floor, f32(1e-12). -/
def eps : EReal := Ideal.ofBits .f32 0x2B8CBCCC#32
def n2048 : EReal := Ideal.ofBits .f32 0x45000000#32
def negInf : EReal := Ideal.ofBits .f32 0xFF800000#32
/-- The ignore index -100 as a 32-bit word. -/
def ignoreIdx : BitVec 32 := 4294967196#32

/-! ## Arrays as coordinate functions -/

abbrev mat {a b : Nat} {α : Type} (x : (⟨2, ![a, b]⟩ : Shape).Idx → α) : Fin a → Fin b → α :=
  fun r k => x (ValueIdx.ix2 r k)
abbrev vec1 {a : Nat} {α : Type} (x : (⟨1, ![a]⟩ : Shape).Idx → α) : Fin a → α :=
  fun r => x (ValueIdx.ix1 r)

/-- One logit: row r of the input against row c of the weight. -/
def logit (X : Fin 2048 → Fin 512 → EReal) (W : Fin 32000 → Fin 512 → EReal) (r : Fin 2048) (c : Fin 32000) : EReal :=
  ∑ k : Fin 512, X r k * W c k

/-- Column j of chunk v. -/
def col (v : Fin 25) (j : Fin 1280) : Fin 32000 := ⟨1280 * v.val + j.val, by have := v.isLt; have := j.isLt; omega⟩

/-- Row p of row block i. -/
def rowOf (i : Fin 2) (p : Fin 1024) : Fin 2048 := ⟨1024 * i.val + p.val, by have := i.isLt; have := p.isLt; omega⟩

/-- Grid point n (of 50, row block major) lies in row block n / 25 and works on chunk n % 25. -/
def blockOf (n : ℕ) : Fin 2 := ⟨(n / 25) % 2, Nat.mod_lt _ (by norm_num)⟩
def chunkOf (n : ℕ) : Fin 25 := ⟨n % 25, Nat.mod_lt _ (by norm_num)⟩

/-! ## The kernel's walk over the chunks -/

/-- What the kernel carries per row between chunks. -/
structure St where
  m : EReal
  z : EReal
  g : EReal
  st : EReal
  ss : EReal
  tt : EReal

def st0 : St := ⟨negBig, zero, zero, zero, zero, zero⟩

/-- One chunk's update of a row's six numbers. -/
def step (s t : Fin 32000 → EReal) (ℓ : BitVec 32) (v : Fin 25) (σ : St) : St :=
  let m' := max σ.m ((Finset.univ : Finset (Fin 1280)).fold max negInf (fun j => s (col v j)))
  { m := m'
    z := Ideal.exp (σ.m - m') * σ.z + ∑ j : Fin 1280, Ideal.exp (s (col v j) - m')
    g := σ.g + ∑ j : Fin 1280, (if BitVec.ofNat 32 (col v j).val = ℓ then s (col v j) else zero)
    st := σ.st + ∑ j : Fin 1280, s (col v j) * t (col v j)
    ss := σ.ss + ∑ j : Fin 1280, s (col v j) * s (col v j)
    tt := σ.tt + ∑ j : Fin 1280, t (col v j) * t (col v j) }

/-- The six numbers after the first n chunks. -/
def stAt (s t : Fin 32000 → EReal) (ℓ : BitVec 32) : ℕ → St
  | 0 => st0
  | n + 1 => if h : n < 25 then step s t ℓ ⟨n, h⟩ (stAt s t ℓ n) else stAt s t ℓ n

/-- The row's loss from the six numbers. -/
def fin (ℓ : BitVec 32) (σ : St) : EReal :=
  Ideal.div
    (half * (if ℓ = ignoreIdx then zero else (σ.m + Ideal.log σ.z) - σ.g)
      + half * (half * (one - Ideal.div σ.st (max (Ideal.sqrt σ.ss) eps * max (Ideal.sqrt σ.tt) eps))))
    n2048

def kRow (s t : Fin 32000 → EReal) (ℓ : BitVec 32) : EReal := fin ℓ (stAt s t ℓ 25)

/-- The kernel's result: the rows' losses added up. -/
def kTotal (X : Fin 2048 → Fin 512 → EReal) (W : Fin 32000 → Fin 512 → EReal) (X' : Fin 2048 → Fin 512 → EReal)
    (W' : Fin 32000 → Fin 512 → EReal) (L : Fin 2048 → BitVec 32) : EReal :=
  zero + ∑ r : Fin 2048, kRow (logit X W r) (logit X' W' r) (L r)

/-! ## The reference's whole-row formulas -/

def rowMax (s : Fin 32000 → EReal) : EReal := max negInf ((Finset.univ : Finset (Fin 32000)).fold max negInf s)

/-- The log-softmax of a row at column c. -/
def logp (s : Fin 32000 → EReal) (c : Fin 32000) : EReal :=
  (s c - rowMax s) - Ideal.log (zero + ∑ c' : Fin 32000, Ideal.exp (s c' - rowMax s))

/-- The column a label names (any word is sent somewhere; only labels below 32000 are read through it). -/
def colOf (ℓ : BitVec 32) : Fin 32000 := ⟨ℓ.toNat % 32000, Nat.mod_lt _ (by norm_num)⟩

def rHard (s : Fin 32000 → EReal) (ℓ : BitVec 32) : EReal :=
  if ℓ = ignoreIdx then zero else -(logp s (colOf ℓ))

/-- Division by the temperature 1. -/
def dv (x : EReal) : EReal := Ideal.div x one

def nrm (s : Fin 32000 → EReal) : EReal :=
  max (Ideal.sqrt (zero + ∑ c : Fin 32000, dv (s c) * dv (s c))) eps

def rCos (s t : Fin 32000 → EReal) : EReal :=
  zero + ∑ c : Fin 32000, Ideal.div (dv (s c)) (nrm s) * Ideal.div (dv (t c)) (nrm t)

def rTotal (X : Fin 2048 → Fin 512 → EReal) (W : Fin 32000 → Fin 512 → EReal) (X' : Fin 2048 → Fin 512 → EReal)
    (W' : Fin 32000 → Fin 512 → EReal) (L : Fin 2048 → BitVec 32) : EReal :=
  half * Ideal.div (zero + ∑ r : Fin 2048, rHard (logit X W r) (L r)) n2048
    + half * Ideal.div (half * (zero + ∑ r : Fin 2048, (one - rCos (logit X W r) (logit X' W' r)))) n2048

/-! ## The domain -/

/-- Every entry is a real number. -/
def Finite2 {a b : Nat} (X : Fin a → Fin b → EReal) : Prop := ∀ r k, ∃ x : ℝ, X r k = (x : EReal)

/-- Every label is the ignore index or a class index. -/
def LabelsOk (L : Fin 2048 → BitVec 32) : Prop := ∀ r, L r = ignoreIdx ∨ (L r).toNat < 32000

end Cert.Spec

end
-- ==== Proof.KBlocks.lean ====
/-
  The blocks the kernel is handed at grid point t, entry by entry, as entries of the arguments: row block
  t / 25 of the two inputs and of the labels (taken as a column), chunk t % 25 of the two weights. The host's
  changes of float format before the call are identities over the extended reals, and the labels' reshape
  to a column keeps the row-major position.
-/
import proofs.«420721_j22101901705595_2_alg».proof.Proof.Gen.KernelIdeal.Frame.Runs
import proofs.«420721_j22101901705595_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.KVal

open Cert.KernelIdeal Cert.KernelIdeal.Gen Idealize.ShloMosaic Idealize.ShloMosaic.TcCoe Idealize.SL.Sem Idealize.ShloMosaic.ValueIdx

variable {F : FTy → Type} [FloatOps F]

/-- The blocks at a point, at their literal types. -/
abbrev blk0 (m : (ℓ : Loc nD τ sig) → Buf (Elt F) ℓ) (c : Dev nD) (t : Fin cfg0.N) : Vec F S1024x512 .bf16 := iblk m c 0 t
abbrev blk1 (m : (ℓ : Loc nD τ sig) → Buf (Elt F) ℓ) (c : Dev nD) (t : Fin cfg0.N) : Vec F S1280x512 .bf16 := iblk m c 1 t
abbrev blk2 (m : (ℓ : Loc nD τ sig) → Buf (Elt F) ℓ) (c : Dev nD) (t : Fin cfg0.N) : Vec F S1024x512 .bf16 := iblk m c 2 t
abbrev blk3 (m : (ℓ : Loc nD τ sig) → Buf (Elt F) ℓ) (c : Dev nD) (t : Fin cfg0.N) : Vec F S1280x512 .bf16 := iblk m c 3 t
abbrev blk4 (m : (ℓ : Loc nD τ sig) → Buf (Elt F) ℓ) (c : Dev nD) (t : Fin cfg0.N) : Vec F S1024x1 .i32 := iblk m c 4 t

variable (m : (ℓ : Loc nD τ sig) → Buf (Elt Ideal) ℓ)

/-! ## The grid point's coordinates and the windows' block numbers -/

theorem t_lt (t : Fin cfg0.N) : t.val < 50 := lt_of_lt_of_eq t.isLt N_0

/-- Windows 0, 2 and 4 take row block t / 25; windows 1 and 3 take chunk t % 25; the second block number is 0. -/
theorem idx0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem idx1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem idx2 : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)
theorem idx3 : ∀ t : Fin cfg0.N, win0_3.index t (0 : Fin 2) = t.val % 25 ∧ win0_3.index t (1 : Fin 2) = 0 :=
  (by decide +kernel : ∀ t : Fin grid0.N, win0_3.index t (0 : Fin 2) = t.val % 25 ∧ win0_3.index t (1 : Fin 2) = 0)
theorem idx4 : ∀ t : Fin cfg0.N, win0_4.index t (0 : Fin 2) = t.val / 25 ∧ win0_4.index t (1 : Fin 2) = 0 :=
  (by decide +kernel : ∀ t : Fin grid0.N, win0_4.index t (0 : Fin 2) = t.val / 25 ∧ win0_4.index t (1 : Fin 2) = 0)

/-! ## The arrays the region finds: the arguments themselves -/

/-- The first input as the region finds it: the argument, its change of float format an identity. -/
theorem V_v1 (c : Dev nD) (i : S2048x512.Idx) :
    (V m c main_v1 : S2048x512.Idx → EReal) i = m ((c.tc : Thread nD τ).loc main_arg0) i := by
  have e : V m c main_v1 = truncf (F := Ideal) (s := S2048x512) (φ := .f32) .bf16 (m ((c.tc : Thread nD τ).loc main_arg0)) bitsLt_bf16_f32 := by
    show StableHlo.after hostOps0 (fun b => m (c, b)) (Proc.devRef .tc main_v1) = _
    after_results
  rw [e]; rfl
/-- The first weight as the region finds it: the argument. -/
theorem V_v2 (c : Dev nD) (i : S32000x512.Idx) :
    (V m c main_v2 : S32000x512.Idx → EReal) i = m ((c.tc : Thread nD τ).loc main_arg1) i := by
  have e : V m c main_v2 = truncf (F := Ideal) (s := S32000x512) (φ := .f32) .bf16 (m ((c.tc : Thread nD τ).loc main_arg1)) bitsLt_bf16_f32 := by
    show StableHlo.after hostOps0 (fun b => m (c, b)) (Proc.devRef .tc main_v2) = _
    after_results
  rw [e]; rfl
/-- The second input as the region finds it: the argument. -/
theorem V_v3 (c : Dev nD) (i : S2048x512.Idx) :
    (V m c main_v3 : S2048x512.Idx → EReal) i = m ((c.tc : Thread nD τ).loc main_arg2) i := by
  have e : V m c main_v3 = truncf (F := Ideal) (s := S2048x512) (φ := .f32) .bf16 (m ((c.tc : Thread nD τ).loc main_arg2)) bitsLt_bf16_f32 := by
    show StableHlo.after hostOps0 (fun b => m (c, b)) (Proc.devRef .tc main_v3) = _
    after_results
  rw [e]; rfl
/-- The second weight as the region finds it: the argument. -/
theorem V_v4 (c : Dev nD) (i : S32000x512.Idx) :
    (V m c main_v4 : S32000x512.Idx → EReal) i = m ((c.tc : Thread nD τ).loc main_arg3) i := by
  have e : V m c main_v4 = truncf (F := Ideal) (s := S32000x512) (φ := .f32) .bf16 (m ((c.tc : Thread nD τ).loc main_arg3)) bitsLt_bf16_f32 := by
    show StableHlo.after hostOps0 (fun b => m (c, b)) (Proc.devRef .tc main_v4) = _
    after_results
  rw [e]; rfl
/-- The labels as the region finds them: the argument as a column, entry (r, 0) the r-th label. -/
theorem V_v0 (c : Dev nD) (r : Fin 2048) :
    V m c main_v0 (ix2 r (0 : Fin 1)) = m ((c.tc : Thread nD τ).loc main_arg4) (ix1 r) := by
  have e : V m c main_v0 = shapeCast (s := S2048) S2048x1 (m ((c.tc : Thread nD τ).loc main_arg4)) shapeCasts_S2048_S2048x1 := by
    show StableHlo.after hostOps0 (fun b => m (c, b)) (Proc.devRef .tc main_v0) = _
    after_results
    rfl
  rw [e]
  exact shapeCast_apply (s := S2048) (t := S2048x1) (m ((c.tc : Thread nD τ).loc main_arg4)) shapeCasts_S2048_S2048x1
    (ix2 r (0 : Fin 1)) (ix1 r) (by
    rw [Shape.rowMajor_val_two, Shape.rowMajor_val_one]
    show r.val = r.val * 1 + 0
    omega)

theorem blk0_apply (c : Dev nD) (t : Fin cfg0.N) (p : Fin 1024) (k : Fin 512) :
    blk0 m c t (ix2 p k)
      = m ((c.tc : Thread nD τ).loc main_arg0) (ix2 (Cert.Spec.rowOf (Cert.Spec.blockOf t.val) p) k) := by
  have hi := idx0 t
  have ht := t_lt t
  unfold blk0 iblk
  rw [View.read_apply]
  show V m c main_v1 _ = m (c.tc.loc main_arg0) _
  refine (V_v1 m c _).trans ?_
  congr 1
  funext a
  apply Fin.ext
  match a with
  | ⟨0, _⟩ =>
    show win0_0.index t (0 : Fin 2) * 1024 + 1 * p.val = 1024 * ((t.val / 25) % 2) + p.val
    rw [hi.1]; omega
  | ⟨1, _⟩ =>
    show win0_0.index t (1 : Fin 2) * 512 + 1 * k.val = k.val
    rw [hi.2]; omega

theorem blk1_apply (c : Dev nD) (t : Fin cfg0.N) (j : Fin 1280) (k : Fin 512) :
    blk1 m c t (ix2 j k)
      = m ((c.tc : Thread nD τ).loc main_arg1) (ix2 (Cert.Spec.col (Cert.Spec.chunkOf t.val) j) k) := by
  have hi := idx1 t
  unfold blk1 iblk
  rw [View.read_apply]
  show V m c main_v2 _ = m (c.tc.loc main_arg1) _
  refine (V_v2 m c _).trans ?_
  congr 1
  funext a
  apply Fin.ext
  match a with
  | ⟨0, _⟩ =>
    show win0_1.index t (0 : Fin 2) * 1280 + 1 * j.val = 1280 * (t.val % 25) + j.val
    rw [hi.1]; omega
  | ⟨1, _⟩ =>
    show win0_1.index t (1 : Fin 2) * 512 + 1 * k.val = k.val
    rw [hi.2]; omega

theorem blk2_apply (c : Dev nD) (t : Fin cfg0.N) (p : Fin 1024) (k : Fin 512) :
    blk2 m c t (ix2 p k)
      = m ((c.tc : Thread nD τ).loc main_arg2) (ix2 (Cert.Spec.rowOf (Cert.Spec.blockOf t.val) p) k) := by
  have hi := idx2 t
  have ht := t_lt t
  unfold blk2 iblk
  rw [View.read_apply]
  show V m c main_v3 _ = m (c.tc.loc main_arg2) _
  refine (V_v3 m c _).trans ?_
  congr 1
  funext a
  apply Fin.ext
  match a with
  | ⟨0, _⟩ =>
    show win0_2.index t (0 : Fin 2) * 1024 + 1 * p.val = 1024 * ((t.val / 25) % 2) + p.val
    rw [hi.1]; omega
  | ⟨1, _⟩ =>
    show win0_2.index t (1 : Fin 2) * 512 + 1 * k.val = k.val
    rw [hi.2]; omega

theorem blk3_apply (c : Dev nD) (t : Fin cfg0.N) (j : Fin 1280) (k : Fin 512) :
    blk3 m c t (ix2 j k)
      = m ((c.tc : Thread nD τ).loc main_arg3) (ix2 (Cert.Spec.col (Cert.Spec.chunkOf t.val) j) k) := by
  have hi := idx3 t
  unfold blk3 iblk
  rw [View.read_apply]
  show V m c main_v4 _ = m (c.tc.loc main_arg3) _
  refine (V_v4 m c _).trans ?_
  congr 1
  funext a
  apply Fin.ext
  match a with
  | ⟨0, _⟩ =>
    show win0_3.index t (0 : Fin 2) * 1280 + 1 * j.val = 1280 * (t.val % 25) + j.val
    rw [hi.1]; omega
  | ⟨1, _⟩ =>
    show win0_3.index t (1 : Fin 2) * 512 + 1 * k.val = k.val
    rw [hi.2]; omega

theorem blk4_apply (c : Dev nD) (t : Fin cfg0.N) (p : Fin 1024) :
    blk4 m c t (ix2 p (0 : Fin 1))
      = m ((c.tc : Thread nD τ).loc main_arg4) (ix1 (Cert.Spec.rowOf (Cert.Spec.blockOf t.val) p)) := by
  have hi := idx4 t
  have ht := t_lt t
  unfold blk4 iblk
  rw [View.read_apply]
  show V m c main_v0 _ = m (c.tc.loc main_arg4) _
  refine Eq.trans ?_ (V_v0 m c (Cert.Spec.rowOf (Cert.Spec.blockOf t.val) p))
  congr 1
  funext a
  apply Fin.ext
  match a with
  | ⟨0, _⟩ =>
    show win0_4.index t (0 : Fin 2) * 1024 + 1 * p.val = 1024 * ((t.val / 25) % 2) + p.val
    rw [hi.1]; omega
  | ⟨1, _⟩ =>
    show win0_4.index t (1 : Fin 2) * 1 + 1 * (0 : Fin 1).val = (0 : Fin 1).val
    rw [hi.2]; rfl

/-- The second grid coordinate of point t is its chunk number. -/
theorem coord1 (t : Fin cfg0.N) : ((grid0.coords t) 1).val = t.val % 25 :=
  (by decide +kernel : ∀ t : Fin grid0.N, ((grid0.coords t) 1).val = t.val % 25) t

end Cert.KernelIdeal.KVal

end
-- ==== Proof.KChain.lean ====
/-
  The six carried row vectors after each grid point, as a recursion on the point: one update of the body's
  arithmetic per point, applied to the start values at the first chunk of a row block (points 0 and 25) and to
  what the point before left otherwise; and the output block at a row block's last chunk (points 24 and 49),
  the body's combination of the six vectors it has just updated.
-/
import proofs.«420721_j22101901705595_2_alg».proof.Proof.KPieces
import proofs.«420721_j22101901705595_2_alg».proof.Proof.KBlocks

noncomputable section

namespace Cert.KernelIdeal.KVal

open Cert.KernelIdeal Cert.KernelIdeal.Gen Idealize.ShloMosaic Idealize.ShloMosaic.TcCoe Idealize.SL.Sem

variable {F : FTy → Type} [FloatOps F]

/-- The six carried vectors: maximum, rescaled sum, label logit, and the sums of s·t, s·s, t·t. -/
abbrev Scr (F : FTy → Type) [FloatOps F] : Type :=
  Vec F S1024x1 .f32 × Vec F S1024x1 .f32 × Vec F S1024x1 .f32 × Vec F S1024x1 .f32 × Vec F S1024x1 .f32 × Vec F S1024x1 .f32

/-- The start values the first chunk's case stores. -/
def scr0 : Scr F := (k0_pay3, k0_pay4, k0_pay5, k0_pay6, k0_pay7, k0_pay8)

/-- One point's update, from the chunk number a1 as a word, the five blocks and the six vectors before. -/
def upd (a1 : BitVec 32) (x0 : Vec F S1024x512 .bf16) (x1 : Vec F S1280x512 .bf16) (x2 : Vec F S1024x512 .bf16)
    (x3 : Vec F S1280x512 .bf16) (x4 : Vec F S1024x1 .i32) (σ : Scr F) : Scr F :=
  (k0_pay13 x0 x1 σ.1, k0_pay12 x0 x1 σ.1 σ.2.1, k0_pay15 a1 (k0_pay9 x0 x1) x4 σ.2.2.1,
    k0_pay16 (k0_pay9 x0 x1) (k0_pay10 x2 x3) σ.2.2.2.1, k0_pay17 (k0_pay9 x0 x1) σ.2.2.2.2.1,
    k0_pay1 σ.2.2.2.2.2 (k0_pay18 (k0_pay10 x2 x3)))

/-- The update at grid point t. -/
def updAt (m : (ℓ : Loc nD τ sig) → Buf (Elt F) ℓ) (c : Dev nD) (t : Fin cfg0.N) (σ : Scr F) : Scr F :=
  upd (BitVec.ofNat 32 ((grid0.coords t) 1).val) (blk0 m c t) (blk1 m c t) (blk2 m c t) (blk3 m c t) (blk4 m c t) σ

/-- The six vectors after point n. -/
def chain (m : (ℓ : Loc nD τ sig) → Buf (Elt F) ℓ) (c : Dev nD) : (n : ℕ) → n < cfg0.N → Scr F
  | 0, h => updAt m c ⟨0, h⟩ scr0
  | n + 1, h => updAt m c ⟨n + 1, h⟩ (if (n + 1) % 25 = 0 then scr0 else chain m c n (Nat.lt_of_succ_lt h))

/-- The output block from the labels block and the six vectors. -/
def outOf (lab : Vec F S1024x1 .i32) (σ : Scr F) : Vec F S1024x1 .f32 :=
  k0_pay2 (k0_pay14 lab) σ.1 σ.2.1 σ.2.2.1 σ.2.2.2.2.1 σ.2.2.2.2.2 σ.2.2.2.1

variable (m : (ℓ : Loc nD τ sig) → Buf (Elt F) ℓ)

/-- At a first chunk the six vectors are the update of the start values. -/
private theorem scr_A (c : Dev nD) (t : Fin cfg0.N) (h0 : t.val % 25 = 0) (h1 : ¬t.val % 25 = 24) :
    (outsAt0 m c t.val t.isLt).2 = updAt m c t scr0 := by
  rw [outsAt0_A m c t h0 h1]
  dsimp only [updAt, upd, scr0]
  exact congrArg₂ Prod.mk (sA0 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))
    (congrArg₂ Prod.mk (sA1 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))
    (congrArg₂ Prod.mk (sA2 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))
    (congrArg₂ Prod.mk (sA3 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))
    (congrArg₂ Prod.mk (sA4 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))
      (sA5 (F := F) (hc0 := (hcond0_0 t).mpr h0) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t))))))

/-- At a middle chunk they are the update of what the point before left. -/
private theorem scr_B (c : Dev nD) (t : Fin cfg0.N) (h0 : ¬t.val % 25 = 0) (h1 : ¬t.val % 25 = 24) :
    (outsAt0 m c t.val t.isLt).2 = updAt m c t (outsAt0 m c (t.val - 1) (Nat.lt_of_le_of_lt (Nat.sub_le _ _) t.isLt)).2 := by
  rw [outsAt0_B m c t h0 h1]
  dsimp only [updAt, upd]
  exact congrArg₂ Prod.mk (sB0 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sB1 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sB2 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sB3 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sB4 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
      (sB5 (F := F) (hc0 := fun h => h0 ((hcond0_0 t).mp h)) (hc1 := fun h => h1 ((hcond0_1 t).mp h)) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)))))

/-- At a last chunk likewise. -/
private theorem scr_C (c : Dev nD) (t : Fin cfg0.N) (h0 : ¬t.val % 25 = 0) (h1 : t.val % 25 = 24) :
    (outsAt0 m c t.val t.isLt).2 = updAt m c t (outsAt0 m c (t.val - 1) (Nat.lt_of_le_of_lt (Nat.sub_le _ _) t.isLt)).2 := by
  rw [outsAt0_C m c t h0 h1]
  dsimp only [updAt, upd]
  exact congrArg₂ Prod.mk (sC0 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sC1 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sC2 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sC3 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
    (congrArg₂ Prod.mk (sC4 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)
      (sC5 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2)))))

/-- At a last chunk the output block is the combination of the six vectors as updated there. -/
private theorem out_C (c : Dev nD) (t : Fin cfg0.N) (h0 : ¬t.val % 25 = 0) (h1 : t.val % 25 = 24) :
    (outsAt0 m c t.val t.isLt).1 = outOf (blk4 m c t) (updAt m c t (outsAt0 m c (t.val - 1) (Nat.lt_of_le_of_lt (Nat.sub_le _ _) t.isLt)).2) := by
  rw [outsAt0_C m c t h0 h1]
  dsimp only [outOf, updAt, upd]
  exact oC5 (F := F) (hc0 := fun h => h0 ((hcond0_0 t).mp h)) (hc1 := (hcond0_1 t).mpr h1) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

/-- What the generated frame says the scratch holds after point n is this recursion. -/
theorem outsAt_scr (c : Dev nD) : ∀ (n : ℕ) (h : n < cfg0.N), (outsAt0 m c n h).2 = chain m c n h := by
  intro n
  induction n with
  | zero =>
    intro h
    refine (scr_A m c ⟨0, h⟩ (Nat.zero_mod 25) (show ¬0 % 25 = 24 by decide)).trans ?_
    rw [chain]
  | succ n ih =>
    intro h
    by_cases h0 : (n + 1) % 25 = 0
    · have h1 : ¬(n + 1) % 25 = 24 := by omega
      refine (scr_A m c ⟨n + 1, h⟩ h0 h1).trans ?_
      rw [chain, if_pos h0]
    · have e : chain m c (n + 1) h = updAt m c ⟨n + 1, h⟩ (chain m c n (Nat.lt_of_succ_lt h)) := by
        rw [chain, if_neg h0]
      rw [e, ← ih (Nat.lt_of_succ_lt h)]
      by_cases h1 : (n + 1) % 25 = 24
      · exact scr_C m c ⟨n + 1, h⟩ h0 h1
      · exact scr_B m c ⟨n + 1, h⟩ h0 h1

/-- At a row block's last chunk the output's staging buffer holds the combination of the vectors just updated. -/
theorem outsAt_out (c : Dev nD) (t : Fin cfg0.N) (h1 : t.val % 25 = 24) :
    (outsAt0 m c t.val t.isLt).1 = outOf (blk4 m c t) (chain m c t.val t.isLt) := by
  have h0 : ¬t.val % 25 = 0 := by omega
  exact (out_C m c t h0 h1).trans
    (congrArg (outOf (blk4 m c t)) ((scr_C m c t h0 h1).symm.trans (outsAt_scr m c t.val t.isLt)))

end Cert.KernelIdeal.KVal

end
-- ==== Proof.KPayIdx.lean ====
/-
  The body's arithmetic read at one row p of a block, over the extended reals: the two matrix products are
  sums over the 512 inner coordinates; every lane reduction is a sum (or a maximum) over the chunk's 1280
  columns; the keepdims reshapes and the broadcasts of a column only move the index; the equality mask compares
  the label with the chunk's first column number plus the lane number.
-/
import proofs.«420721_j22101901705595_2_alg».proof.Proof.Gen.KernelIdeal.Skeleton
import proofs.«420721_j22101901705595_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.ValueIdx

/-! ## The layout operations and the lane reductions at a row -/

/-- A vector of `a` entries viewed as a column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over `b` lanes reads, at row `p` and any lane, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane reduction reads at row `p`, lane `k`. -/
theorem lift_row (h : S1024x1280.Reduces [1] S1024) (p : Fin 1024) (k : Fin 1280) :
    h.lift (ix1 p) k = ix2 p k :=
  funext fun a => Fin.ext (by
    match a with
    | ⟨0, _⟩ => rfl
    | ⟨1, _⟩ => rfl)

/-- A lane sum at row `p` is the sum over the 1280 lanes. -/
theorem laneSum_apply (src : FVec Ideal S1024x1280 .f32) (h : S1024x1280.Reduces [1] S1024) (hφ : FKind.Formats .f32)
    (hacc : (0x00000000#32 : BitVec 32) = 0x00000000#32) (p : Fin 1024) :
    multiReduction .add [1] S1024 src 0x00000000#32 h hφ hacc (ix1 p) = ∑ j : Fin 1280, src (ix2 p j) := by
  refine (Ideal.multiReduction_add_single src 0x00000000#32 h hφ hacc (ix1 p)).trans ?_
  exact Finset.sum_congr rfl fun k _ => congrArg src (lift_row h p k)

/-- A lane maximum at row `p` is the fold of `max` from `-∞` over the 1280 lanes. -/
theorem laneMax_apply (src : FVec Ideal S1024x1280 .f32) (h : S1024x1280.Reduces [1] S1024) (hφ : FKind.Formats .f32)
    (hacc : (0xFF800000#32 : BitVec 32) = 0xFF800000#32) (p : Fin 1024) :
    multiReduction .maximumf [1] S1024 src 0xFF800000#32 h hφ hacc (ix1 p)
      = (Finset.univ : Finset (Fin 1280)).fold max Cert.Spec.negInf (fun j => src (ix2 p j)) := by
  refine (Ideal.multiReduction_maximumf_single src 0xFF800000#32 h hφ hacc (ix1 p)).trans ?_
  have e : src ∘ h.lift (ix1 p) = fun j : Fin 1280 => src (ix2 p j) :=
    funext fun k => congrArg src (lift_row h p k)
  rw [e]
  rfl

/-- The keepdims lane sum added to a column, as the kernel writes it, at row `p`. -/
theorem accSum_apply (o : FVec Ideal S1024x1 .f32) (src : FVec Ideal S1024x1280 .f32) (p : Fin 1024) :
    shapeCast S1024x1 (addf o (shapeCast S1024x1
        (multiReduction .add [1] S1024 src 0x00000000#32 Facts₀.reduces_S1024x1280_S1024 (.inl rfl) rfl)
        Facts₀.shapeCasts_S1024_S1024x1)) Facts₀.shapeCasts_S1024x1_S1024x1 (ix2 p (0 : Fin 1))
      = o (ix2 p (0 : Fin 1)) + ∑ j : Fin 1280, src (ix2 p j) := by
  refine (congrFun (shapeCast_self _ _) _).trans ?_
  refine congrArg (o (ix2 p (0 : Fin 1)) + ·) ?_
  refine (shapeCast_a_a1_apply _ _ p 0).trans ?_
  exact laneSum_apply src _ _ _ p

/-! ## The block product at a row and a lane -/

theorem lhs_dot_0 (i : S1024x1280.Idx) (q : dot_S1024x512_S1280x512_S1024x1280_1_1_0_0_n_n.contr.Idx) :
    (dot_S1024x512_S1280x512_S1024x1280_1_1_0_0_n_n.lhsIdx i q 0).val = (i 0).val := by
  unfold DotDims.lhsIdx
  rw [dif_neg (show ¬(0 : Fin S1024x512.rank) ∈ dot_S1024x512_S1280x512_S1024x1280_1_1_0_0_n_n.lhsBatch by decide), dif_pos (show (0 : Fin S1024x512.rank) ∈ dot_S1024x512_S1280x512_S1024x1280_1_1_0_0_n_n.lhsNonContracting by decide)]
  rfl
theorem lhs_dot_1 (i : S1024x1280.Idx) (q : dot_S1024x512_S1280x512_S1024x1280_1_1_0_0_n_n.contr.Idx) :
    (dot_S1024x512_S1280x512_S1024x1280_1_1_0_0_n_n.lhsIdx i q 1).val = (q ⟨0, by decide⟩).val :=
  dot_S1024x512_S1280x512_S1024x1280_1_1_0_0_n_n.lhsIdx_val_of_single rfl i q
theorem rhs_dot_0 (i : S1024x1280.Idx) (q : dot_S1024x512_S1280x512_S1024x1280_1_1_0_0_n_n.contr.Idx) :
    (dot_S1024x512_S1280x512_S1024x1280_1_1_0_0_n_n.rhsIdx i q 0).val = (i 1).val := by
  unfold DotDims.rhsIdx
  rw [dif_neg (show ¬(0 : Fin S1280x512.rank) ∈ dot_S1024x512_S1280x512_S1024x1280_1_1_0_0_n_n.rhsBatch by decide), dif_pos (show (0 : Fin S1280x512.rank) ∈ dot_S1024x512_S1280x512_S1024x1280_1_1_0_0_n_n.rhsNonContracting by decide)]
  rfl
theorem rhs_dot_1 (i : S1024x1280.Idx) (q : dot_S1024x512_S1280x512_S1024x1280_1_1_0_0_n_n.contr.Idx) :
    (dot_S1024x512_S1280x512_S1024x1280_1_1_0_0_n_n.rhsIdx i q 1).val = (q ⟨0, by decide⟩).val :=
  dot_S1024x512_S1280x512_S1024x1280_1_1_0_0_n_n.rhsIdx_val_of_single rfl i q

/-- The product of a 1024×512 block with the transpose of a 1280×512 block, accumulated into zero, at row `p` and
    lane `j`: the sum over the 512 inner coordinates. -/
theorem matmul_row (x0 : FVec Ideal S1024x512 .bf16) (x1 : FVec Ideal S1280x512 .bf16) (p : Fin 1024) (j : Fin 1280) :
    matmul dot_S1024x512_S1280x512_S1024x1280_1_1_0_0_n_n none x0 x1 (constant (F := Ideal) S1024x1280 .f32 0x00000000#32) (ix2 p j)
      = ∑ k : Fin 512, x0 (ix2 p k) * x1 (ix2 j k) := by
  refine (Ideal.matmul_constant_zero_apply dot_S1024x512_S1280x512_S1024x1280_1_1_0_0_n_n none x0 x1 (ix2 p j)).trans ?_
  rw [← Equiv.sum_comp (ValueIdx.contrEquiv1 dot_S1024x512_S1280x512_S1024x1280_1_1_0_0_n_n 512 rfl rfl).symm]
  refine Finset.sum_congr rfl fun k _ => ?_
  have hk := ValueIdx.contrEquiv1_symm_val dot_S1024x512_S1280x512_S1024x1280_1_1_0_0_n_n 512 rfl rfl k
  have el : dot_S1024x512_S1280x512_S1024x1280_1_1_0_0_n_n.lhsIdx (ix2 p j) ((ValueIdx.contrEquiv1 dot_S1024x512_S1280x512_S1024x1280_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S1280x512_S1024x1280_1_1_0_0_n_n.rhsIdx (ix2 p j) ((ValueIdx.contrEquiv1 dot_S1024x512_S1280x512_S1024x1280_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-- The student block product at row p, lane j. -/
theorem pay9_apply (x0 : FVec Ideal S1024x512 .bf16) (x1 : FVec Ideal S1280x512 .bf16) (p : Fin 1024) (j : Fin 1280) :
    k0_pay9 (F := Ideal) x0 x1 (ix2 p j) = ∑ k : Fin 512, x0 (ix2 p k) * x1 (ix2 j k) := by
  have e0 : shapeCast S1024x512 x0 Facts₀.shapeCasts_S1024x512_S1024x512 = x0 := shapeCast_self _ _
  have e1 : shapeCast S1280x512 x1 Facts₀.shapeCasts_S1280x512_S1280x512 = x1 := shapeCast_self _ _
  unfold k0_pay9
  show matmul dot_S1024x512_S1280x512_S1024x1280_1_1_0_0_n_n none (shapeCast S1024x512 x0 Facts₀.shapeCasts_S1024x512_S1024x512)
      (shapeCast S1280x512 x1 Facts₀.shapeCasts_S1280x512_S1280x512) (constant (F := Ideal) S1024x1280 .f32 0x00000000#32) (ix2 p j) = _
  rw [e0, e1]
  exact matmul_row x0 x1 p j

/-- The teacher block product at row p, lane j. -/
theorem pay10_apply (x2 : FVec Ideal S1024x512 .bf16) (x3 : FVec Ideal S1280x512 .bf16) (p : Fin 1024) (j : Fin 1280) :
    k0_pay10 (F := Ideal) x2 x3 (ix2 p j) = ∑ k : Fin 512, x2 (ix2 p k) * x3 (ix2 j k) := by
  have e0 : shapeCast S1024x512 x2 Facts₀.shapeCasts_S1024x512_S1024x512 = x2 := shapeCast_self _ _
  have e1 : shapeCast S1280x512 x3 Facts₀.shapeCasts_S1280x512_S1280x512 = x3 := shapeCast_self _ _
  unfold k0_pay10
  show matmul dot_S1024x512_S1280x512_S1024x1280_1_1_0_0_n_n none (shapeCast S1024x512 x2 Facts₀.shapeCasts_S1024x512_S1024x512)
      (shapeCast S1280x512 x3 Facts₀.shapeCasts_S1280x512_S1280x512) (constant (F := Ideal) S1024x1280 .f32 0x00000000#32) (ix2 p j) = _
  rw [e0, e1]
  exact matmul_row x2 x3 p j

/-- The start values. -/
theorem pay3_apply (y : S1024x1.Idx) : k0_pay3 (F := Ideal) y = Cert.Spec.negBig := by
  unfold k0_pay3
  exact congrFun (shapeCast_self _ _) y
theorem pay4_apply (y : S1024x1.Idx) : k0_pay4 (F := Ideal) y = Cert.Spec.zero := by
  unfold k0_pay4
  exact congrFun (shapeCast_self _ _) y
theorem pay5_apply (y : S1024x1.Idx) : k0_pay5 (F := Ideal) y = Cert.Spec.zero := by
  unfold k0_pay5
  exact congrFun (shapeCast_self _ _) y
theorem pay6_apply (y : S1024x1.Idx) : k0_pay6 (F := Ideal) y = Cert.Spec.zero := by
  unfold k0_pay6
  exact congrFun (shapeCast_self _ _) y
theorem pay7_apply (y : S1024x1.Idx) : k0_pay7 (F := Ideal) y = Cert.Spec.zero := by
  unfold k0_pay7
  exact congrFun (shapeCast_self _ _) y
theorem pay8_apply (y : S1024x1.Idx) : k0_pay8 (F := Ideal) y = Cert.Spec.zero := by
  unfold k0_pay8
  exact congrFun (shapeCast_self _ _) y

theorem pay16_apply (A B : FVec Ideal S1024x1280 .f32) (o : FVec Ideal S1024x1 .f32) (p : Fin 1024) :
    k0_pay16 (F := Ideal) A B o (ix2 p (0 : Fin 1)) = o (ix2 p (0 : Fin 1)) + ∑ j : Fin 1280, A (ix2 p j) * B (ix2 p j) := by
  unfold k0_pay16
  exact accSum_apply o (mulf A B) p

theorem pay17_apply (A : FVec Ideal S1024x1280 .f32) (o : FVec Ideal S1024x1 .f32) (p : Fin 1024) :
    k0_pay17 (F := Ideal) A o (ix2 p (0 : Fin 1)) = o (ix2 p (0 : Fin 1)) + ∑ j : Fin 1280, A (ix2 p j) * A (ix2 p j) := by
  unfold k0_pay17
  exact accSum_apply o (mulf A A) p

theorem pay18_apply (B : FVec Ideal S1024x1280 .f32) (y : S1024x1280.Idx) : k0_pay18 (F := Ideal) B y = B y * B y := by
  rfl

theorem pay1_apply (o : FVec Ideal S1024x1 .f32) (B2 : FVec Ideal S1024x1280 .f32) (p : Fin 1024) :
    k0_pay1 (F := Ideal) o B2 (ix2 p (0 : Fin 1)) = o (ix2 p (0 : Fin 1)) + ∑ j : Fin 1280, B2 (ix2 p j) := by
  unfold k0_pay1
  exact accSum_apply o B2 p

theorem pay14_apply (x4 : Vec Ideal S1024x1 .i32) (y : S1024x1.Idx) : k0_pay14 (F := Ideal) x4 y = x4 y := by
  unfold k0_pay14
  exact congrFun (shapeCast_self _ _) y

/-! ## The running maximum and the rescaled sum -/

/-- The maximum of the old running maximum and the chunk's lane maximum, at row p. -/
theorem pay11_apply (x0 : FVec Ideal S1024x512 .bf16) (x1 : FVec Ideal S1280x512 .bf16) (mo : FVec Ideal S1024x1 .f32) (p : Fin 1024) :
    k0_pay11 (F := Ideal) x0 x1 mo (ix2 p (0 : Fin 1))
      = max (mo (ix2 p (0 : Fin 1)))
          ((Finset.univ : Finset (Fin 1280)).fold max Cert.Spec.negInf (fun j => k0_pay9 (F := Ideal) x0 x1 (ix2 p j))) := by
  unfold k0_pay11
  refine congrArg (max (mo (ix2 p (0 : Fin 1))) ·) ?_
  refine (shapeCast_a_a1_apply _ _ p 0).trans ?_
  exact laneMax_apply (k0_pay9 (F := Ideal) x0 x1) _ _ _ p

/-- The stored maximum is that maximum. -/
theorem pay13_eq_pay11 (x0 : FVec Ideal S1024x512 .bf16) (x1 : FVec Ideal S1280x512 .bf16) (mo : FVec Ideal S1024x1 .f32) (y : S1024x1.Idx) :
    k0_pay13 (F := Ideal) x0 x1 mo y = k0_pay11 (F := Ideal) x0 x1 mo y := by
  unfold k0_pay13
  exact congrFun (shapeCast_self _ _) y

/-- The running maximum's update at row p. -/
theorem pay13_apply (x0 : FVec Ideal S1024x512 .bf16) (x1 : FVec Ideal S1280x512 .bf16) (mo : FVec Ideal S1024x1 .f32) (p : Fin 1024) :
    k0_pay13 (F := Ideal) x0 x1 mo (ix2 p (0 : Fin 1))
      = max (mo (ix2 p (0 : Fin 1)))
          ((Finset.univ : Finset (Fin 1280)).fold max Cert.Spec.negInf (fun j => k0_pay9 (F := Ideal) x0 x1 (ix2 p j))) :=
  (pay13_eq_pay11 x0 x1 mo _).trans (pay11_apply x0 x1 mo p)

/-- The rescaled sum's update at row p, in terms of the updated maximum. -/
theorem pay12_apply (x0 : FVec Ideal S1024x512 .bf16) (x1 : FVec Ideal S1280x512 .bf16) (mo zo : FVec Ideal S1024x1 .f32) (p : Fin 1024) :
    k0_pay12 (F := Ideal) x0 x1 mo zo (ix2 p (0 : Fin 1))
      = Ideal.exp (mo (ix2 p (0 : Fin 1)) - k0_pay13 (F := Ideal) x0 x1 mo (ix2 p (0 : Fin 1))) * zo (ix2 p (0 : Fin 1))
        + ∑ j : Fin 1280, Ideal.exp (k0_pay9 (F := Ideal) x0 x1 (ix2 p j) - k0_pay13 (F := Ideal) x0 x1 mo (ix2 p (0 : Fin 1))) := by
  have e13 := pay13_eq_pay11 x0 x1 mo (ix2 p (0 : Fin 1))
  rw [e13]
  unfold k0_pay12
  refine (accSum_apply _ _ p).trans ?_
  refine congrArg (Ideal.exp (mo (ix2 p (0 : Fin 1)) - k0_pay11 (F := Ideal) x0 x1 mo (ix2 p (0 : Fin 1))) * zo (ix2 p (0 : Fin 1)) + ·) ?_
  refine Finset.sum_congr rfl fun j _ => ?_
  refine congrArg (fun t => Ideal.exp (k0_pay9 (F := Ideal) x0 x1 (ix2 p j) - t)) ?_
  exact broadcastTo_a1_ab_apply _ _ p j

/-! ## The equality mask and the label test -/

/-- A select on "the two words are equal" is the `if` on their equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · have hb : (x == y) = true := by simp [h]
    rw [if_pos h, hb]
    exact if_pos rfl
  · have hb : (x == y) = false := by simp [h]
    rw [if_neg h, hb]
    exact if_neg (by decide)

/-- A select on "the two words differ" is the `if` on their equality with the branches swapped. -/
theorem select_cmpi_ne {α : Type} (x y : BitVec 32) (a b : α) :
    Scalar.select (IntOp.cmpi .ne x y) a b = if x = y then b else a := by
  show (if BitVec.ofBool (x != y) = 1#1 then a else b) = _
  by_cases h : x = y
  · have hb : (x != y) = false := by simp [h]
    rw [if_pos h, hb]
    exact if_neg (by decide)
  · have hb : (x != y) = true := by simp [h]
    rw [if_neg h, hb]
    exact if_pos rfl

/-- The label logit's update at row p: the lanes whose column number (the chunk's first column a1·1280 plus the
    lane) equals the label contribute their logit. -/
theorem pay15_apply (a1 : BitVec 32) (A : FVec Ideal S1024x1280 .f32) (x4 : Vec Ideal S1024x1 .i32) (go : FVec Ideal S1024x1 .f32) (p : Fin 1024) :
    k0_pay15 (F := Ideal) a1 A x4 go (ix2 p (0 : Fin 1))
      = go (ix2 p (0 : Fin 1))
        + ∑ j : Fin 1280, (if a1 * 1280#32 + BitVec.ofNat 32 j.val = x4 (ix2 p (0 : Fin 1)) then A (ix2 p j) else Cert.Spec.zero) := by
  unfold k0_pay15
  refine (accSum_apply go _ p).trans ?_
  refine congrArg (go (ix2 p (0 : Fin 1)) + ·) ?_
  refine Finset.sum_congr rfl fun j _ => ?_
  have e1 : iota .tc S1024x1280 32 [1] Facts₀.iota_S1024x1280_d1_w32 (ix2 p j) = BitVec.ofNat 32 j.val :=
    iota_single_apply .tc S1024x1280 32 1 _ (ix2 p j)
  have e2 : broadcastTo S1024x1280 (k0_pay14 (F := Ideal) x4) Facts₀.broadcasts_S1024x1_S1024x1280 (ix2 p j) = x4 (ix2 p (0 : Fin 1)) :=
    (broadcastTo_a1_ab_apply _ _ p j).trans (pay14_apply x4 _)
  show Scalar.select (IntOp.cmpi .eq (a1 * 1280#32 + iota .tc S1024x1280 32 [1] Facts₀.iota_S1024x1280_d1_w32 (ix2 p j))
      (broadcastTo S1024x1280 (k0_pay14 (F := Ideal) x4) Facts₀.broadcasts_S1024x1_S1024x1280 (ix2 p j))) (A (ix2 p j)) Cert.Spec.zero = _
  rw [e1, e2]
  exact select_cmpi_eq _ _ _ _

/-- The output block at row p: the row's loss from the six numbers. -/
theorem pay2_apply (lab : IVec S1024x1 32) (vm vz vg vss vtt vst : FVec Ideal S1024x1 .f32) (p : Fin 1024) :
    k0_pay2 (F := Ideal) lab vm vz vg vss vtt vst (ix2 p (0 : Fin 1))
      = Cert.Spec.fin (lab (ix2 p (0 : Fin 1)))
          ⟨vm (ix2 p (0 : Fin 1)), vz (ix2 p (0 : Fin 1)), vg (ix2 p (0 : Fin 1)), vst (ix2 p (0 : Fin 1)),
            vss (ix2 p (0 : Fin 1)), vtt (ix2 p (0 : Fin 1))⟩ := by
  have e := select_cmpi_ne (lab (ix2 p (0 : Fin 1))) Cert.Spec.ignoreIdx
    (vm (ix2 p (0 : Fin 1)) + Ideal.log (vz (ix2 p (0 : Fin 1))) - vg (ix2 p (0 : Fin 1))) Cert.Spec.zero
  unfold k0_pay2 Cert.Spec.fin
  exact congrArg (fun t => Ideal.div (Cert.Spec.half * t + Cert.Spec.half * (Cert.Spec.half * (Cert.Spec.one
    - Ideal.div (vst (ix2 p (0 : Fin 1))) (max (Ideal.sqrt (vss (ix2 p (0 : Fin 1)))) Cert.Spec.eps
        * max (Ideal.sqrt (vtt (ix2 p (0 : Fin 1)))) Cert.Spec.eps)))) Cert.Spec.n2048) e

end Cert.KernelIdeal.KVal

end
-- ==== Proof.KRowInv.lean ====
/-
  The recursion on the grid points, read one row at a time over the extended reals, is the specification's
  walk over the chunks: after point n the six vectors at row p hold the six numbers of row 1024·(n/25) + p
  after n % 25 + 1 chunks, and at a row block's last chunk the output block at row p holds that row's loss.
-/
import proofs.«420721_j22101901705595_2_alg».proof.Proof.KChain
import proofs.«420721_j22101901705595_2_alg».proof.Proof.KPayIdx

noncomputable section

namespace Cert.KernelIdeal.KVal

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The student logits of a row, from the arguments. -/
abbrev sRow (c : Dev nD) (r : Fin 2048) : Fin 32000 → EReal :=
  Cert.Spec.logit (Cert.Spec.mat (m ((c.tc : Thread nD τ).loc main_arg0))) (Cert.Spec.mat (m ((c.tc : Thread nD τ).loc main_arg1))) r
/-- The teacher logits of a row. -/
abbrev tRow (c : Dev nD) (r : Fin 2048) : Fin 32000 → EReal :=
  Cert.Spec.logit (Cert.Spec.mat (m ((c.tc : Thread nD τ).loc main_arg2))) (Cert.Spec.mat (m ((c.tc : Thread nD τ).loc main_arg3))) r
/-- The label of a row. -/
abbrev lRow (c : Dev nD) (r : Fin 2048) : BitVec 32 := Cert.Spec.vec1 (m ((c.tc : Thread nD τ).loc main_arg4)) r

/-- The six numbers of the specification for row p of point n's row block, after point n's chunk. -/
abbrev specAt (c : Dev nD) (n : ℕ) (p : Fin 1024) : Cert.Spec.St :=
  Cert.Spec.stAt (sRow m c (Cert.Spec.rowOf (Cert.Spec.blockOf n) p)) (tRow m c (Cert.Spec.rowOf (Cert.Spec.blockOf n) p))
    (lRow m c (Cert.Spec.rowOf (Cert.Spec.blockOf n) p)) (n % 25 + 1)

/-- The student block product at row p, lane j, is the row's student logit at column j of the point's chunk:
    both are the sum over the 512 inner coordinates of the same products. -/
theorem pay9_sRow (c : Dev nD) (t : Fin cfg0.N) (p : Fin 1024) (j : Fin 1280) :
    k0_pay9 (F := Ideal) (blk0 m c t) (blk1 m c t) (ix2 p j)
      = sRow m c (Cert.Spec.rowOf (Cert.Spec.blockOf t.val) p) (Cert.Spec.col (Cert.Spec.chunkOf t.val) j) := by
  refine (pay9_apply _ _ p j).trans ?_
  simp only [Cert.Spec.logit]
  refine Finset.sum_congr rfl fun k _ => ?_
  exact congrArg₂ (· * ·) (blk0_apply m c t p k) (blk1_apply m c t j k)

/-- The same for the teacher block product. -/
theorem pay10_tRow (c : Dev nD) (t : Fin cfg0.N) (p : Fin 1024) (j : Fin 1280) :
    k0_pay10 (F := Ideal) (blk2 m c t) (blk3 m c t) (ix2 p j)
      = tRow m c (Cert.Spec.rowOf (Cert.Spec.blockOf t.val) p) (Cert.Spec.col (Cert.Spec.chunkOf t.val) j) := by
  refine (pay10_apply _ _ p j).trans ?_
  simp only [Cert.Spec.logit]
  refine Finset.sum_congr rfl fun k _ => ?_
  exact congrArg₂ (· * ·) (blk2_apply m c t p k) (blk3_apply m c t j k)

/-- The chunk's first column number a·1280 plus the lane number, as 32-bit words, is the word of the column
    number 1280·a + j. -/
theorem lab_word (a j : ℕ) :
    BitVec.ofNat 32 a * 1280#32 + BitVec.ofNat 32 j = BitVec.ofNat 32 (1280 * a + j) := by
  rw [Nat.mul_comm 1280 a, BitVec.ofNat_add, BitVec.ofNat_mul]

/-- One point's update read at row p: if the six vectors before hold the six numbers τ at row p, the six vectors
    after hold the specification's step of τ for the point's chunk, on the row's logits and label. -/
theorem updAt_row (c : Dev nD) (t : Fin cfg0.N) (p : Fin 1024) (σ : Scr Ideal) (τ : Cert.Spec.St)
    (h1 : σ.1 (ix2 p (0 : Fin 1)) = τ.m) (h2 : σ.2.1 (ix2 p (0 : Fin 1)) = τ.z)
    (h3 : σ.2.2.1 (ix2 p (0 : Fin 1)) = τ.g) (h4 : σ.2.2.2.1 (ix2 p (0 : Fin 1)) = τ.st)
    (h5 : σ.2.2.2.2.1 (ix2 p (0 : Fin 1)) = τ.ss) (h6 : σ.2.2.2.2.2 (ix2 p (0 : Fin 1)) = τ.tt) :
    (updAt m c t σ).1 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).m
    ∧ (updAt m c t σ).2.1 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).z
    ∧ (updAt m c t σ).2.2.1 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).g
    ∧ (updAt m c t σ).2.2.2.1 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).st
    ∧ (updAt m c t σ).2.2.2.2.1 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).ss
    ∧ (updAt m c t σ).2.2.2.2.2 (ix2 p (0 : Fin 1))
        = (Cert.Spec.step (sRow m c (Cert.Spec.rowOf (Cert.Spec.blockOf t.val) p)) (tRow m c (Cert.Spec.rowOf (Cert.Spec.blockOf t.val) p))
            (lRow m c (Cert.Spec.rowOf (Cert.Spec.blockOf t.val) p)) (Cert.Spec.chunkOf t.val) τ).tt := by
  have hs : (fun j : Fin 1280 => k0_pay9 (F := Ideal) (blk0 m c t) (blk1 m c t) (ix2 p j))
      = fun j => sRow m c (Cert.Spec.rowOf (Cert.Spec.blockOf t.val) p) (Cert.Spec.col (Cert.Spec.chunkOf t.val) j) :=
    funext fun j => pay9_sRow m c t p j
  -- the running maximum
  have hm : k0_pay13 (F := Ideal) (blk0 m c t) (blk1 m c t) σ.1 (ix2 p (0 : Fin 1))
      = max τ.m ((Finset.univ : Finset (Fin 1280)).fold max Cert.Spec.negInf
          (fun j => sRow m c (Cert.Spec.rowOf (Cert.Spec.blockOf t.val) p) (Cert.Spec.col (Cert.Spec.chunkOf t.val) j))) := by
    refine (pay13_apply _ _ _ p).trans ?_
    rw [hs, h1]
  -- the rescaled sum
  have hz : k0_pay12 (F := Ideal) (blk0 m c t) (blk1 m c t) σ.1 σ.2.1 (ix2 p (0 : Fin 1))
      = Ideal.exp (τ.m - max τ.m ((Finset.univ : Finset (Fin 1280)).fold max Cert.Spec.negInf
          (fun j => sRow m c (Cert.Spec.rowOf (Cert.Spec.blockOf t.val) p) (Cert.Spec.col (Cert.Spec.chunkOf t.val) j)))) * τ.z
        + ∑ j : Fin 1280, Ideal.exp (sRow m c (Cert.Spec.rowOf (Cert.Spec.blockOf t.val) p) (Cert.Spec.col (Cert.Spec.chunkOf t.val) j)
            - max τ.m ((Finset.univ : Finset (Fin 1280)).fold max Cert.Spec.negInf
                (fun j => sRow m c (Cert.Spec.rowOf (Cert.Spec.blockOf t.val) p) (Cert.Spec.col (Cert.Spec.chunkOf t.val) j)))) := by
    refine (pay12_apply _ _ _ _ p).trans ?_
    rw [hm, h1, h2]
    refine congrArg₂ (· + ·) rfl (Finset.sum_congr rfl fun j _ => ?_)
    rw [pay9_sRow]
  -- the label's logit
  have hg : k0_pay15 (F := Ideal) (BitVec.ofNat 32 ((grid0.coords t) 1).val) (k0_pay9 (F := Ideal) (blk0 m c t) (blk1 m c t)) (blk4 m c t) σ.2.2.1
        (ix2 p (0 : Fin 1))
      = τ.g + ∑ j : Fin 1280,
          (if BitVec.ofNat 32 (Cert.Spec.col (Cert.Spec.chunkOf t.val) j).val = lRow m c (Cert.Spec.rowOf (Cert.Spec.blockOf t.val) p)
            then sRow m c (Cert.Spec.rowOf (Cert.Spec.blockOf t.val) p) (Cert.Spec.col (Cert.Spec.chunkOf t.val) j) else Cert.Spec.zero) := by
    refine (pay15_apply _ _ _ _ p).trans ?_
    rw [h3]
    refine congrArg₂ (· + ·) rfl (Finset.sum_congr rfl fun j _ => ?_)
    rw [pay9_sRow, blk4_apply, coord1, lab_word]
    rfl
  -- the three plain sums
  have hst : k0_pay16 (F := Ideal) (k0_pay9 (F := Ideal) (blk0 m c t) (blk1 m c t)) (k0_pay10 (F := Ideal) (blk2 m c t) (blk3 m c t)) σ.2.2.2.1
        (ix2 p (0 : Fin 1))
      = τ.st + ∑ j : Fin 1280, sRow m c (Cert.Spec.rowOf (Cert.Spec.blockOf t.val) p) (Cert.Spec.col (Cert.Spec.chunkOf t.val) j)
          * tRow m c (Cert.Spec.rowOf (Cert.Spec.blockOf t.val) p) (Cert.Spec.col (Cert.Spec.chunkOf t.val) j) := by
    refine (pay16_apply _ _ _ p).trans ?_
    rw [h4]
    refine congrArg₂ (· + ·) rfl (Finset.sum_congr rfl fun j _ => ?_)
    rw [pay9_sRow, pay10_tRow]
  have hss : k0_pay17 (F := Ideal) (k0_pay9 (F := Ideal) (blk0 m c t) (blk1 m c t)) σ.2.2.2.2.1 (ix2 p (0 : Fin 1))
      = τ.ss + ∑ j : Fin 1280, sRow m c (Cert.Spec.rowOf (Cert.Spec.blockOf t.val) p) (Cert.Spec.col (Cert.Spec.chunkOf t.val) j)
          * sRow m c (Cert.Spec.rowOf (Cert.Spec.blockOf t.val) p) (Cert.Spec.col (Cert.Spec.chunkOf t.val) j) := by
    refine (pay17_apply _ _ p).trans ?_
    rw [h5]
    refine congrArg₂ (· + ·) rfl (Finset.sum_congr rfl fun j _ => ?_)
    rw [pay9_sRow]
  have htt : k0_pay1 (F := Ideal) σ.2.2.2.2.2 (k0_pay18 (F := Ideal) (k0_pay10 (F := Ideal) (blk2 m c t) (blk3 m c t))) (ix2 p (0 : Fin 1))
      = τ.tt + ∑ j : Fin 1280, tRow m c (Cert.Spec.rowOf (Cert.Spec.blockOf t.val) p) (Cert.Spec.col (Cert.Spec.chunkOf t.val) j)
          * tRow m c (Cert.Spec.rowOf (Cert.Spec.blockOf t.val) p) (Cert.Spec.col (Cert.Spec.chunkOf t.val) j) := by
    refine (pay1_apply _ _ p).trans ?_
    rw [h6]
    refine congrArg₂ (· + ·) rfl (Finset.sum_congr rfl fun j _ => ?_)
    rw [pay18_apply, pay10_tRow]
  exact ⟨hm, hz, hg, hst, hss, htt⟩

/-- The six numbers after point n's chunk are one step, for that chunk, of the six numbers after the chunks before it. -/
theorem specAt_step (c : Dev nD) (n : ℕ) (p : Fin 1024) :
    specAt m c n p
      = Cert.Spec.step (sRow m c (Cert.Spec.rowOf (Cert.Spec.blockOf n) p)) (tRow m c (Cert.Spec.rowOf (Cert.Spec.blockOf n) p))
          (lRow m c (Cert.Spec.rowOf (Cert.Spec.blockOf n) p)) (Cert.Spec.chunkOf n)
          (Cert.Spec.stAt (sRow m c (Cert.Spec.rowOf (Cert.Spec.blockOf n) p)) (tRow m c (Cert.Spec.rowOf (Cert.Spec.blockOf n) p))
            (lRow m c (Cert.Spec.rowOf (Cert.Spec.blockOf n) p)) (n % 25)) := by
  have hk : n % 25 < 25 := Nat.mod_lt n (by norm_num)
  simp only [Cert.Spec.stAt, dif_pos hk]
  rfl

theorem row_inv (c : Dev nD) (n : ℕ) (h : n < cfg0.N) (p : Fin 1024) :
    (chain m c n h).1 (ix2 p (0 : Fin 1)) = (specAt m c n p).m
    ∧ (chain m c n h).2.1 (ix2 p (0 : Fin 1)) = (specAt m c n p).z
    ∧ (chain m c n h).2.2.1 (ix2 p (0 : Fin 1)) = (specAt m c n p).g
    ∧ (chain m c n h).2.2.2.1 (ix2 p (0 : Fin 1)) = (specAt m c n p).st
    ∧ (chain m c n h).2.2.2.2.1 (ix2 p (0 : Fin 1)) = (specAt m c n p).ss
    ∧ (chain m c n h).2.2.2.2.2 (ix2 p (0 : Fin 1)) = (specAt m c n p).tt := by
  induction n with
  | zero =>
    have key := updAt_row m c ⟨0, h⟩ p scr0 Cert.Spec.st0 (pay3_apply (ix2 p (0 : Fin 1))) (pay4_apply (ix2 p (0 : Fin 1))) (pay5_apply (ix2 p (0 : Fin 1))) (pay6_apply (ix2 p (0 : Fin 1)))
      (pay7_apply (ix2 p (0 : Fin 1))) (pay8_apply (ix2 p (0 : Fin 1)))
    rw [specAt_step]
    exact key
  | succ n ih =>
    by_cases h0 : (n + 1) % 25 = 0
    · -- the first chunk of a row block: the update starts from the start values
      have hc : chain m c (n + 1) h = updAt m c ⟨n + 1, h⟩ scr0 := by
        rw [chain, if_pos h0]
      have key := updAt_row m c ⟨n + 1, h⟩ p scr0 Cert.Spec.st0 (pay3_apply (ix2 p (0 : Fin 1))) (pay4_apply (ix2 p (0 : Fin 1))) (pay5_apply (ix2 p (0 : Fin 1))) (pay6_apply (ix2 p (0 : Fin 1)))
        (pay7_apply (ix2 p (0 : Fin 1))) (pay8_apply (ix2 p (0 : Fin 1)))
      rw [hc, specAt_step, h0]
      exact key
    · -- a later chunk: the update starts from what the point before left, in the same row block
      have hc : chain m c (n + 1) h = updAt m c ⟨n + 1, h⟩ (chain m c n (Nat.lt_of_succ_lt h)) := by
        rw [chain, if_neg h0]
      have hb : Cert.Spec.blockOf (n + 1) = Cert.Spec.blockOf n := by
        unfold Cert.Spec.blockOf
        apply Fin.ext
        show (n + 1) / 25 % 2 = n / 25 % 2
        omega
      have hk : (n + 1) % 25 = n % 25 + 1 := by omega
      have hτ : Cert.Spec.stAt (sRow m c (Cert.Spec.rowOf (Cert.Spec.blockOf (n + 1)) p))
          (tRow m c (Cert.Spec.rowOf (Cert.Spec.blockOf (n + 1)) p)) (lRow m c (Cert.Spec.rowOf (Cert.Spec.blockOf (n + 1)) p))
          ((n + 1) % 25) = specAt m c n p := by
        rw [hb, hk]
      have ihn := ih (Nat.lt_of_succ_lt h)
      have key := updAt_row m c ⟨n + 1, h⟩ p (chain m c n (Nat.lt_of_succ_lt h)) (specAt m c n p)
        ihn.1 ihn.2.1 ihn.2.2.1 ihn.2.2.2.1 ihn.2.2.2.2.1 ihn.2.2.2.2.2
      rw [hc, specAt_step, hτ]
      exact key

theorem out_row (c : Dev nD) (t : Fin cfg0.N) (h1 : t.val % 25 = 24) (p : Fin 1024) :
    outOf (blk4 m c t) (chain m c t.val t.isLt) (ix2 p (0 : Fin 1))
      = Cert.Spec.kRow (sRow m c (Cert.Spec.rowOf (Cert.Spec.blockOf t.val) p)) (tRow m c (Cert.Spec.rowOf (Cert.Spec.blockOf t.val) p))
          (lRow m c (Cert.Spec.rowOf (Cert.Spec.blockOf t.val) p)) := by
  have hr := row_inv m c t.val t.isLt p
  have h25 : specAt m c t.val p
      = Cert.Spec.stAt (sRow m c (Cert.Spec.rowOf (Cert.Spec.blockOf t.val) p)) (tRow m c (Cert.Spec.rowOf (Cert.Spec.blockOf t.val) p))
          (lRow m c (Cert.Spec.rowOf (Cert.Spec.blockOf t.val) p)) 25 := by
    show Cert.Spec.stAt _ _ _ (t.val % 25 + 1) = _
    rw [h1]
  unfold outOf Cert.Spec.kRow
  refine (pay2_apply _ _ _ _ _ _ _ p).trans ?_
  rw [pay14_apply, blk4_apply, hr.1, hr.2.1, hr.2.2.1, hr.2.2.2.1, hr.2.2.2.2.1, hr.2.2.2.2.2, h25]

end Cert.KernelIdeal.KVal

end
-- ==== Proof.KFinal.lean ====
/-
  The kernel program's result: the two write-backs (after points 24 and 49) fill the 2048 × 1 output array, row r
  with row r's loss, and the host's sum over that array from zero is the total.
-/
import proofs.«420721_j22101901705595_2_alg».proof.Proof.KRowInv
import proofs.«420721_j22101901705595_2_alg».proof.Proof.Gen.KernelIdeal.Points
import proofs.«420721_j22101901705595_2_alg».proof.Proof.Gen.KernelIdeal.Frame
import Idealize.ShloMosaic.Lib.Pipeline.Value
import Idealize.ShloMosaic.Lib.StableHlo.Run
import Idealize.ShloMosaic.PureOps.Ideal.Laws

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array after the region: each row's loss. -/
def outArr (c : Dev nD) : S2048x1.Idx → EReal :=
  fun y => Cert.Spec.kRow (sRow m c (y 0)) (tRow m c (y 0)) (lRow m c (y 0))

/-- The output window's block index at point t: row block t / 25, the one column block. -/
theorem idx5 : ∀ t : Fin cfg0.N, win0_5.index t (0 : Fin 2) = t.val / 25 ∧ win0_5.index t (1 : Fin 2) = 0 :=
  (by decide +kernel : ∀ t : Fin grid0.N, _)

/-- What a row block's last point writes back is that row block of the rows' losses. -/
theorem flushed_eq (c : Dev nD) (t : Fin cfg0.N) (hf : (cfg0.win 5).flush t = true) :
    (dats m 0 c).flushed 5 t = ((cfg0.win 5).blk t).view.read (Elt Ideal) (outArr m c) := by
  have h24 : t.val % 25 = 24 := (flush0_5 t).mp hf
  show (cfg0.win 5).cut (grid0.coords t) ((dats m 0 c).after 5 t) = _
  rw [after0_5, outsAt_out m c t h24]
  funext y
  obtain ⟨p, q, rfl⟩ : ∃ (p : Fin 1024) (q : Fin 1), y = ix2 p q := ⟨y 0, y 1, eq_ix2 y⟩
  obtain rfl : q = 0 := Subsingleton.elim _ _
  show outOf (blk4 m c t) (chain m c t.val t.isLt) (ix2 p (0 : Fin 1))
    = outArr m c (((cfg0.win 5).blk t).view.emb (ix2 p (0 : Fin 1)))
  rw [out_row m c t h24 p]
  unfold outArr
  have he : (((cfg0.win 5).blk t).view.emb (ix2 p (0 : Fin 1))) 0 = Cert.Spec.rowOf (Cert.Spec.blockOf t.val) p := by
    apply Fin.ext
    show win0_5.index t (0 : Fin 2) * 1024 + 1 * p.val = 1024 * ((t.val / 25) % 2) + p.val
    have h5 := (idx5 t).1
    have hN : cfg0.N = 50 := N_0
    have := t.isLt
    omega
  rw [he]

/-- An index of the output array is in point t's block iff each coordinate is in the block's range. -/
theorem mem_blk5 (t : Fin cfg0.N) (i : S2048x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v5).slice (win0_5.rect t)).set ↔ _
  rw [View.set_slice_whole, Rect.mem_set_unit]
  exact Iff.rfl

/-- Row r is written back by the last point of its row block. -/
theorem cover5 (i : S2048x1.Idx) :
    ∃ t : Fin cfg0.N, (cfg0.win 5).flush t = true ∧ i ∈ ((cfg0.win 5).blk t).view.set := by
  have hN : cfg0.N = 50 := N_0
  have h0 : (i 0).val < 2048 := (i 0).isLt
  have h1 : (i 1).val < 1 := (i 1).isLt
  have hlt : 25 * ((i 0).val / 1024) + 24 < cfg0.N := by omega
  obtain ⟨e0, e1⟩ := idx5 ⟨25 * ((i 0).val / 1024) + 24, hlt⟩
  refine ⟨⟨25 * ((i 0).val / 1024) + 24, hlt⟩, (flush0_5 _).mpr (by show (25 * ((i 0).val / 1024) + 24) % 25 = 24; omega), ?_⟩
  rw [mem_blk5]
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 1 ≤ (i 1).val ∧ (i 1).val < win0_5.index _ (1 : Fin 2) * 1 + 1
    rw [e1]; omega

theorem final5 (c : Dev nD) : (dats m 0 c).arrAt 5 cfg0.N = outArr m c :=
  (dats m 0 c).arrAt_eq_of_cover 5 (outArr m c) (flushed_eq m c) cover5

/-- The host's sum of the output array from zero is the total over the rows. -/
theorem tail_eq (c : Dev nD) :
    Pipeline.afterTail₀ cfgs (dats m) 0 (V0 m) [hostOps1] c main_v6
      = fun _ => Cert.Spec.kTotal (Cert.Spec.mat (m ((c.tc : Thread nD τ).loc main_arg0))) (Cert.Spec.mat (m ((c.tc : Thread nD τ).loc main_arg1))) (Cert.Spec.mat (m ((c.tc : Thread nD τ).loc main_arg2))) (Cert.Spec.mat (m ((c.tc : Thread nD τ).loc main_arg3))) (Cert.Spec.vec1 (m ((c.tc : Thread nD τ).loc main_arg4))) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v5)
      = outArr m c from (Pipeline.withArrays_arr spec0 launch0.win.arr_inj c _ _ 5).trans (final5 m c)]
  funext j
  show Ideal.hostReduceAdd reducesTo_S2048x1_S_d0_1 (outArr m c) (Ideal.ofBits .f32 0x00000000#32) j = _
  rw [Ideal.hostReduceAdd_total _ (fun b => b.elim0)]
  unfold Cert.Spec.kTotal Cert.Spec.zero
  refine congrArg (Ideal.ofBits .f32 0x00000000#32 + ·) ?_
  rw [ValueIdx.sum_idx2]
  refine Finset.sum_congr rfl fun r _ => ?_
  exact Fin.sum_univ_one _

theorem run : θ_run defs (onTc (τ := τ) (main (F := Ideal))) ⟨m, fun _ => 0, ρ⟩ fun r => ∀ c : Dev nD,
      r.2.mem ((c.tc : Thread nD τ).loc main_v6)
        = (fun _ => Cert.Spec.kTotal (Cert.Spec.mat (m ((c.tc : Thread nD τ).loc main_arg0))) (Cert.Spec.mat (m ((c.tc : Thread nD τ).loc main_arg1))) (Cert.Spec.mat (m ((c.tc : Thread nD τ).loc main_arg2))) (Cert.Spec.mat (m ((c.tc : Thread nD τ).loc main_arg3))) (Cert.Spec.vec1 (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KVal

end
-- ==== Proof.RefRun.lean ====
/-
  The reference program's run. Its @main is one hundred host operations in a row; run from any memory, every
  execution ends with each buffer at the fold of the operations' results over what the memory held, so the result
  buffer ends at the operations' composed term of the five arguments, and the arguments, which no operation writes,
  end unchanged. The operations of the three functions jax outlined (log-softmax, where, take-along-axis) are listed
  a second time spelt over their buffers directly; the two lists are equal operation by operation, and over the
  second the composed term is read off by rewriting.
-/
import proofs.«420721_j22101901705595_2_alg».proof.Proof.RefRunP
import Idealize.ShloMosaic.Lib.StableHlo.Run

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The hundred operations, each over its buffers directly. -/
abbrev opsPlain : List (HloOp τ sig (Elt F)) :=
  [ binary main_arg0 main_arg1 main_v0 ((fun l r => Host.dotGeneral dot_S2048x512_S32000x512_S2048x32000_1_1_0_0_n_n none l r) : (⟨S2048x512, .f32⟩ : BufTy).Contents (Elt F) → (⟨S32000x512, .f32⟩ : BufTy).Contents (Elt F) → (⟨S2048x32000, .f32⟩ : BufTy).Contents (Elt F)),
    binary main_arg2 main_arg3 main_v1 ((fun l r => Host.dotGeneral dot_S2048x512_S32000x512_S2048x32000_1_1_0_0_n_n none l r) : (⟨S2048x512, .f32⟩ : BufTy).Contents (Elt F) → (⟨S32000x512, .f32⟩ : BufTy).Contents (Elt F) → (⟨S2048x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call0_cst_0 ((constant S_ .f32 0xFF800000#32) : (⟨S_, .f32⟩ : BufTy).Contents (Elt F)),
    unary main_call0_cst_0 main_call0_v1 ((broadcastInDim S2048 ![] bcast_S_S2048) : (⟨S_, .f32⟩ : BufTy).Contents (Elt F) → (⟨S2048, .f32⟩ : BufTy).Contents (Elt F)),
    binary main_call0_v1 main_call0_v0 main_call0_v2 (maximumf : (⟨S2048, .f32⟩ : BufTy).Contents (Elt F) → (⟨S2048, .f32⟩ : BufTy).Contents (Elt F) → (⟨S2048, .f32⟩ : BufTy).Contents (Elt F)),
    unary main_call0_v2 main_call0_v3 ((broadcastInDim S2048x1 ![0] bcast_S2048_S2048x1_0) : (⟨S2048, .f32⟩ : BufTy).Contents (Elt F) → (⟨S2048x1, .f32⟩ : BufTy).Contents (Elt F)),
    unary main_call0_v3 main_call0_v4 ((broadcastInDim S2048x32000 ![0, 1] bcast_S2048x1_S2048x32000_0_1) : (⟨S2048x1, .f32⟩ : BufTy).Contents (Elt F) → (⟨S2048x32000, .f32⟩ : BufTy).Contents (Elt F)),
    binary main_v0 main_call0_v4 main_call0_v5 (subf : (⟨S2048x32000, .f32⟩ : BufTy).Contents (Elt F) → (⟨S2048x32000, .f32⟩ : BufTy).Contents (Elt F) → (⟨S2048x32000, .f32⟩ : BufTy).Contents (Elt F)),
    unary main_call0_v5 main_call0_v6 (Host.exp : (⟨S2048x32000, .f32⟩ : BufTy).Contents (Elt F) → (⟨S2048x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call0_v7 main_call0_v8 ((broadcastInDim S2048x1 ![0] bcast_S2048_S2048x1_0) : (⟨S2048, .f32⟩ : BufTy).Contents (Elt F) → (⟨S2048x1, .f32⟩ : BufTy).Contents (Elt F)),
    unary main_call0_v8 main_call0_v9 (Host.log : (⟨S2048x1, .f32⟩ : BufTy).Contents (Elt F) → (⟨S2048x1, .f32⟩ : BufTy).Contents (Elt F)),
    unary main_call0_v9 main_call0_v10 ((broadcastInDim S2048x32000 ![0, 1] bcast_S2048x1_S2048x32000_0_1) : (⟨S2048x1, .f32⟩ : BufTy).Contents (Elt F) → (⟨S2048x32000, .f32⟩ : BufTy).Contents (Elt F)),
    binary main_call0_v5 main_call0_v10 main_v2 (subf : (⟨S2048x32000, .f32⟩ : BufTy).Contents (Elt F) → (⟨S2048x32000, .f32⟩ : BufTy).Contents (Elt F) → (⟨S2048x32000, .f32⟩ : BufTy).Contents (Elt F)),
    nullary main_c (constantI S_ 32 4294967196#32),
    unary main_c main_v3 (broadcastInDim S2048 ![] bcast_S_S2048 : (⟨S_, .i32⟩ : BufTy).Contents (Elt F) → (⟨S2048, .i32⟩ : BufTy).Contents (Elt F)),
    binary main_arg4 main_v3 main_v4 (cmpi .ne : (⟨S2048, .i32⟩ : BufTy).Contents (Elt F) → (⟨S2048, .i32⟩ : BufTy).Contents (Elt F) → (⟨S2048, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S2048 ![] bcast_S_S2048) : (⟨S_, .i32⟩ : BufTy).Contents (Elt F) → (⟨S2048, .i32⟩ : BufTy).Contents (Elt F)),
    ternary main_v4 main_arg4 main_call1_v1 main_v5 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v5 main_v6 (broadcastInDim S2048x1 ![0] bcast_S2048_S2048x1_0 : (⟨S2048, .i32⟩ : BufTy).Contents (Elt F) → (⟨S2048x1, .i32⟩ : BufTy).Contents (Elt F)),
    nullary main_call2_c ((constantI S_ 32 0#32) : (⟨S_, .i32⟩ : BufTy).Contents (Elt F)),
    unary main_call2_c main_call2_v0 ((broadcastInDim S2048x1 ![] bcast_S_S2048x1) : (⟨S_, .i32⟩ : BufTy).Contents (Elt F) → (⟨S2048x1, .i32⟩ : BufTy).Contents (Elt F)),
    binary main_v6 main_call2_v0 main_call2_v1 ((cmpi .slt) : (⟨S2048x1, .i32⟩ : BufTy).Contents (Elt F) → (⟨S2048x1, .i32⟩ : BufTy).Contents (Elt F) → (⟨S2048x1, .i1⟩ : BufTy).Contents (Elt F)),
    nullary main_call2_c_0 ((constantI S_ 32 32000#32) : (⟨S_, .i32⟩ : BufTy).Contents (Elt F)),
    unary main_call2_c_0 main_call2_v2 ((broadcastInDim S2048x1 ![] bcast_S_S2048x1) : (⟨S_, .i32⟩ : BufTy).Contents (Elt F) → (⟨S2048x1, .i32⟩ : BufTy).Contents (Elt F)),
    binary main_v6 main_call2_v2 main_call2_v3 (addi : (⟨S2048x1, .i32⟩ : BufTy).Contents (Elt F) → (⟨S2048x1, .i32⟩ : BufTy).Contents (Elt F) → (⟨S2048x1, .i32⟩ : BufTy).Contents (Elt F)),
    ternary main_call2_v1 main_call2_v3 main_v6 main_call2_v4 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    reshape main_call2_v4 main_call2_v5 rfl shapeCasts_S2048x1_S2048x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S2048x1x1 ![] bcast_S_S2048x1x1) : (⟨S_, .i32⟩ : BufTy).Contents (Elt F) → (⟨S2048x1x1, .i32⟩ : BufTy).Contents (Elt F)),
    binary main_call2_v5 main_call2_v6 main_call2_v7 ((cmpi .sge) : (⟨S2048x1x1, .i32⟩ : BufTy).Contents (Elt F) → (⟨S2048x1x1, .i32⟩ : BufTy).Contents (Elt F) → (⟨S2048x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S2048x1x1 ![0, 1, 2] bcast_S1x1x1_S2048x1x1_0_1_2) : (⟨S1x1x1, .i32⟩ : BufTy).Contents (Elt F) → (⟨S2048x1x1, .i32⟩ : BufTy).Contents (Elt F)),
    binary main_call2_v5 main_call2_v9 main_call2_v10 ((cmpi .sle) : (⟨S2048x1x1, .i32⟩ : BufTy).Contents (Elt F) → (⟨S2048x1x1, .i32⟩ : BufTy).Contents (Elt F) → (⟨S2048x1x1, .i1⟩ : BufTy).Contents (Elt F)),
    binary main_call2_v7 main_call2_v10 main_call2_v11 (andi : (⟨S2048x1x1, .i1⟩ : BufTy).Contents (Elt F) → (⟨S2048x1x1, .i1⟩ : BufTy).Contents (Elt F) → (⟨S2048x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)),
    binary main_v2 main_call2_v5 main_call2_v13 ((fun x i => Host.gather gather_S2048x32000_S2048x1x1_S2048x1_n_1_0_0_1_2_11 x i) : (⟨S2048x32000, .f32⟩ : BufTy).Contents (Elt F) → (⟨S2048x1x1, .i32⟩ : BufTy).Contents (Elt F) → (⟨S2048x1, .f32⟩ : BufTy).Contents (Elt F)),
    nullary main_call2_cst ((constant S_ .f32 0x7FC00000#32) : (⟨S_, .f32⟩ : BufTy).Contents (Elt F)),
    unary main_call2_cst main_call2_v14 ((broadcastInDim S2048x1 ![] bcast_S_S2048x1) : (⟨S_, .f32⟩ : BufTy).Contents (Elt F) → (⟨S2048x1, .f32⟩ : BufTy).Contents (Elt F)),
    ternary main_call2_v12 main_call2_v13 main_call2_v14 main_v7 (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)),
    reshape main_v7 main_v8 rfl shapeCasts_S2048x1_S2048,
    unary main_v8 main_v9 (Host.negf : (⟨S2048, .f32⟩ : BufTy).Contents (Elt F) → (⟨S2048, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 ((broadcastInDim S2048 ![] bcast_S_S2048) : (⟨S_, .f32⟩ : BufTy).Contents (Elt F) → (⟨S2048, .f32⟩ : BufTy).Contents (Elt F)),
    ternary main_v4 main_v9 main_call3_v1 main_v10 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    nullary main_cst_1 (constant S_ .f32 0x00000000#32),
    binary main_v10 main_cst_1 main_v11 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_2 (constant S_ .f32 0x45000000#32),
    binary main_v11 main_cst_2 main_v12 (Host.divf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v13 (broadcastInDim S2048x32000 ![] bcast_S_S2048x32000 : (⟨S_, .f32⟩ : BufTy).Contents (Elt F) → (⟨S2048x32000, .f32⟩ : BufTy).Contents (Elt F)),
    binary main_v0 main_v13 main_v14 (Host.divf : (⟨S2048x32000, .f32⟩ : BufTy).Contents (Elt F) → (⟨S2048x32000, .f32⟩ : BufTy).Contents (Elt F) → (⟨S2048x32000, .f32⟩ : BufTy).Contents (Elt F)),
    nullary main_cst_4 (constant S_ .f32 0x3F800000#32),
    unary main_cst_4 main_v15 (broadcastInDim S2048x32000 ![] bcast_S_S2048x32000 : (⟨S_, .f32⟩ : BufTy).Contents (Elt F) → (⟨S2048x32000, .f32⟩ : BufTy).Contents (Elt F)),
    binary main_v1 main_v15 main_v16 (Host.divf : (⟨S2048x32000, .f32⟩ : BufTy).Contents (Elt F) → (⟨S2048x32000, .f32⟩ : BufTy).Contents (Elt F) → (⟨S2048x32000, .f32⟩ : BufTy).Contents (Elt F)),
    binary main_v14 main_v14 main_v17 (mulf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0x00000000#32),
    binary main_v17 main_cst_5 main_v18 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_v18 main_v19 (broadcastInDim S2048x1 ![0] bcast_S2048_S2048x1_0 : (⟨S2048, .f32⟩ : BufTy).Contents (Elt F) → (⟨S2048x1, .f32⟩ : BufTy).Contents (Elt F)),
    unary main_v19 main_v20 (Host.sqrt : (⟨S2048x1, .f32⟩ : BufTy).Contents (Elt F) → (⟨S2048x1, .f32⟩ : BufTy).Contents (Elt F)),
    nullary main_cst_6 (constant S_ .f32 0x2B8CBCCC#32),
    unary main_cst_6 main_v21 (broadcastInDim S2048x1 ![] bcast_S_S2048x1 : (⟨S_, .f32⟩ : BufTy).Contents (Elt F) → (⟨S2048x1, .f32⟩ : BufTy).Contents (Elt F)),
    binary main_v20 main_v21 main_v22 (maximumf : (⟨S2048x1, .f32⟩ : BufTy).Contents (Elt F) → (⟨S2048x1, .f32⟩ : BufTy).Contents (Elt F) → (⟨S2048x1, .f32⟩ : BufTy).Contents (Elt F)),
    unary main_v22 main_v23 (broadcastInDim S2048x32000 ![0, 1] bcast_S2048x1_S2048x32000_0_1 : (⟨S2048x1, .f32⟩ : BufTy).Contents (Elt F) → (⟨S2048x32000, .f32⟩ : BufTy).Contents (Elt F)),
    binary main_v14 main_v23 main_v24 (Host.divf : (⟨S2048x32000, .f32⟩ : BufTy).Contents (Elt F) → (⟨S2048x32000, .f32⟩ : BufTy).Contents (Elt F) → (⟨S2048x32000, .f32⟩ : BufTy).Contents (Elt F)),
    binary main_v16 main_v16 main_v25 (mulf : (⟨S2048x32000, .f32⟩ : BufTy).Contents (Elt F) → (⟨S2048x32000, .f32⟩ : BufTy).Contents (Elt F) → (⟨S2048x32000, .f32⟩ : BufTy).Contents (Elt F)),
    nullary main_cst_7 (constant S_ .f32 0x00000000#32),
    binary main_v25 main_cst_7 main_v26 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_v26 main_v27 (broadcastInDim S2048x1 ![0] bcast_S2048_S2048x1_0 : (⟨S2048, .f32⟩ : BufTy).Contents (Elt F) → (⟨S2048x1, .f32⟩ : BufTy).Contents (Elt F)),
    unary main_v27 main_v28 (Host.sqrt : (⟨S2048x1, .f32⟩ : BufTy).Contents (Elt F) → (⟨S2048x1, .f32⟩ : BufTy).Contents (Elt F)),
    nullary main_cst_8 (constant S_ .f32 0x2B8CBCCC#32),
    unary main_cst_8 main_v29 (broadcastInDim S2048x1 ![] bcast_S_S2048x1 : (⟨S_, .f32⟩ : BufTy).Contents (Elt F) → (⟨S2048x1, .f32⟩ : BufTy).Contents (Elt F)),
    binary main_v28 main_v29 main_v30 (maximumf : (⟨S2048x1, .f32⟩ : BufTy).Contents (Elt F) → (⟨S2048x1, .f32⟩ : BufTy).Contents (Elt F) → (⟨S2048x1, .f32⟩ : BufTy).Contents (Elt F)),
    unary main_v30 main_v31 (broadcastInDim S2048x32000 ![0, 1] bcast_S2048x1_S2048x32000_0_1 : (⟨S2048x1, .f32⟩ : BufTy).Contents (Elt F) → (⟨S2048x32000, .f32⟩ : BufTy).Contents (Elt F)),
    binary main_v16 main_v31 main_v32 (Host.divf : (⟨S2048x32000, .f32⟩ : BufTy).Contents (Elt F) → (⟨S2048x32000, .f32⟩ : BufTy).Contents (Elt F) → (⟨S2048x32000, .f32⟩ : BufTy).Contents (Elt F)),
    binary main_v24 main_v32 main_v33 (mulf : (⟨S2048x32000, .f32⟩ : BufTy).Contents (Elt F) → (⟨S2048x32000, .f32⟩ : BufTy).Contents (Elt F) → (⟨S2048x32000, .f32⟩ : BufTy).Contents (Elt F)),
    nullary main_cst_9 (constant S_ .f32 0x00000000#32),
    binary main_v33 main_cst_9 main_v34 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_10 (constant S_ .f32 0x3F800000#32),
    unary main_cst_10 main_v35 (broadcastInDim S2048 ![] bcast_S_S2048 : (⟨S_, .f32⟩ : BufTy).Contents (Elt F) → (⟨S2048, .f32⟩ : BufTy).Contents (Elt F)),
    binary main_v35 main_v34 main_v36 (subf : (⟨S2048, .f32⟩ : BufTy).Contents (Elt F) → (⟨S2048, .f32⟩ : BufTy).Contents (Elt F) → (⟨S2048, .f32⟩ : BufTy).Contents (Elt F)),
    nullary main_cst_11 (constant S_ .f32 0x00000000#32),
    binary main_v36 main_cst_11 main_v37 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_12 (constant S_ .f32 0x3F000000#32),
    binary main_cst_12 main_v37 main_v38 (mulf : (⟨S_, .f32⟩ : BufTy).Contents (Elt F) → (⟨S_, .f32⟩ : BufTy).Contents (Elt F) → (⟨S_, .f32⟩ : BufTy).Contents (Elt F)),
    nullary main_cst_13 (constant S_ .f32 0x45000000#32),
    binary main_v38 main_cst_13 main_v39 (Host.divf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v12 main_v40 (mulf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_cst_15 main_v39 main_v41 (mulf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)) ]

/-- Two lists are equal when their heads and their tails are. -/
theorem cons_congr {α : Type} {a a' : α} {l l' : List α} (h : a = a') (h' : l = l') : a :: l = a' :: l' := by
  subst h; subst h'; rfl

/-! An operation of an outlined function is written over references that carry their buffer's type; at the
    buffer's own type it is the operation over the buffers themselves. -/

theorem nullary_of (y : Ref sig .tc) (oy : y.space ≠ .host) (uy : y.isScoped = false) (v : y.ty.Contents (Elt F)) :
    TRef.nullary (τ := τ) (TRef.of (T := y.ty) y rfl oy uy) v = StableHlo.nullary (τ := τ) y v ⟨oy, uy⟩ := rfl

theorem unary_of (x y : Ref sig .tc) (ox : x.space ≠ .host) (ux : x.isScoped = false) (oy : y.space ≠ .host)
    (uy : y.isScoped = false) (f : x.ty.Contents (Elt F) → y.ty.Contents (Elt F)) :
    TRef.unary (τ := τ) (TRef.of (T := x.ty) x rfl ox ux) (TRef.of (T := y.ty) y rfl oy uy) f
      = StableHlo.unary (τ := τ) x y f ⟨ox, ux⟩ ⟨oy, uy⟩ := rfl

theorem binary_of (a b y : Ref sig .tc) (oa : a.space ≠ .host) (ua : a.isScoped = false) (ob : b.space ≠ .host)
    (ub : b.isScoped = false) (oy : y.space ≠ .host) (uy : y.isScoped = false)
    (f : a.ty.Contents (Elt F) → b.ty.Contents (Elt F) → y.ty.Contents (Elt F)) :
    TRef.binary (τ := τ) (TRef.of (T := a.ty) a rfl oa ua) (TRef.of (T := b.ty) b rfl ob ub) (TRef.of (T := y.ty) y rfl oy uy) f
      = StableHlo.binary (τ := τ) a b y f ⟨oa, ua⟩ ⟨ob, ub⟩ ⟨oy, uy⟩ := rfl

theorem ternary_of (c a b y : Ref sig .tc) (oc : c.space ≠ .host) (uc : c.isScoped = false) (oa : a.space ≠ .host)
    (ua : a.isScoped = false) (ob : b.space ≠ .host) (ub : b.isScoped = false) (oy : y.space ≠ .host) (uy : y.isScoped = false)
    (f : c.ty.Contents (Elt F) → a.ty.Contents (Elt F) → b.ty.Contents (Elt F) → y.ty.Contents (Elt F)) :
    TRef.ternary (τ := τ) (TRef.of (T := c.ty) c rfl oc uc) (TRef.of (T := a.ty) a rfl oa ua) (TRef.of (T := b.ty) b rfl ob ub)
        (TRef.of (T := y.ty) y rfl oy uy) f
      = StableHlo.ternary (τ := τ) c a b y f ⟨oc, uc⟩ ⟨oa, ua⟩ ⟨ob, ub⟩ ⟨oy, uy⟩ := rfl

theorem reshape_of (x y : Ref sig .tc) (ox : x.space ≠ .host) (ux : x.isScoped = false) (oy : y.space ≠ .host)
    (uy : y.isScoped = false) (he : x.ty.elt = y.ty.elt) (hn : x.ty.shape.ShapeCasts y.ty.shape) :
    TRef.reshape (τ := τ) (Val := Elt F) (TRef.of (T := x.ty) x rfl ox ux) (TRef.of (T := y.ty) y rfl oy uy) he hn
      = StableHlo.reshape (τ := τ) (Val := Elt F) x y he hn ⟨ox, ux⟩ ⟨oy, uy⟩ := rfl

set_option maxRecDepth 8192 in
set_option maxHeartbeats 4000000 in
/-- The program's list is that list, one operation at a time. -/
theorem ops_eq : (ops (F := F)) = opsPlain := by
  unfold ops opsPlain
  iterate 100 (refine cons_congr (by
    first
    | with_reducible rfl
    | exact nullary_of _ _ _ _
    | exact unary_of _ _ _ _ _ _ _
    | exact binary_of _ _ _ _ _ _ _ _ _ _
    | exact ternary_of _ _ _ _ _ _ _ _ _ _ _ _ _
    | exact reshape_of _ _ _ _ _ _ _ _) ?_)
  rfl

set_option maxRecDepth 8192 in
set_option maxHeartbeats 40000000 in
/-- After the hundred operations the result buffer holds their composed term of the arguments. -/
theorem eval42 (m : (ℓ : Loc nD τ sig) → Buf (Elt F) ℓ) (c : Dev nD) :
    after (ops (F := F)) (launchContents m c) (Proc.devRef .tc main_v42) = res_main_v42 m c := by
  rw [ops_eq]
  after_results_simp <;> rfl

set_option maxRecDepth 8192 in
set_option maxHeartbeats 40000000 in
/-- No operation writes argument 0. -/
theorem kept0 (m : (ℓ : Loc nD τ sig) → Buf (Elt F) ℓ) (c : Dev nD) :
    after (ops (F := F)) (launchContents m c) (Proc.devRef .tc main_arg0) = m ((c.tc : Thread nD τ).loc main_arg0) := by
  rw [ops_eq]
  after_results_simp <;> rfl

set_option maxRecDepth 8192 in
set_option maxHeartbeats 40000000 in
/-- No operation writes argument 1. -/
theorem kept1 (m : (ℓ : Loc nD τ sig) → Buf (Elt F) ℓ) (c : Dev nD) :
    after (ops (F := F)) (launchContents m c) (Proc.devRef .tc main_arg1) = m ((c.tc : Thread nD τ).loc main_arg1) := by
  rw [ops_eq]
  after_results_simp <;> rfl

set_option maxRecDepth 8192 in
set_option maxHeartbeats 40000000 in
/-- No operation writes argument 2. -/
theorem kept2 (m : (ℓ : Loc nD τ sig) → Buf (Elt F) ℓ) (c : Dev nD) :
    after (ops (F := F)) (launchContents m c) (Proc.devRef .tc main_arg2) = m ((c.tc : Thread nD τ).loc main_arg2) := by
  rw [ops_eq]
  after_results_simp <;> rfl

set_option maxRecDepth 8192 in
set_option maxHeartbeats 40000000 in
/-- No operation writes argument 3. -/
theorem kept3 (m : (ℓ : Loc nD τ sig) → Buf (Elt F) ℓ) (c : Dev nD) :
    after (ops (F := F)) (launchContents m c) (Proc.devRef .tc main_arg3) = m ((c.tc : Thread nD τ).loc main_arg3) := by
  rw [ops_eq]
  after_results_simp <;> rfl

set_option maxRecDepth 8192 in
set_option maxHeartbeats 40000000 in
/-- No operation writes argument 4. -/
theorem kept4 (m : (ℓ : Loc nD τ sig) → Buf (Elt F) ℓ) (c : Dev nD) :
    after (ops (F := F)) (launchContents m c) (Proc.devRef .tc main_arg4) = m ((c.tc : Thread nD τ).loc main_arg4) := by
  rw [ops_eq]
  after_results_simp <;> rfl

/-- On every device, from any memory with zero counters: every weakly fair execution of @main terminates with the
    result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = res_main_v42 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v42).trans (eval42 m c),
      (h c main_arg0).trans (kept0 m c),
      (h c main_arg1).trans (kept1 m c),
      (h c main_arg2).trans (kept2 m c),
      (h c main_arg3).trans (kept3 m c),
      (h c main_arg4).trans (kept4 m c)⟩)
    (run_seq scopedRefs_eq scopedSems_eq defs main (fun _ => ops) main_eq (fun _ => ops_sub) m ρ)

end Cert.ReferenceIdeal.RefRun

end
-- ==== Proof.RefImports.lean ====
/- The reference's run and its read-at-an-index lemmas, gathered for the modules that read the reference. -/
import proofs.«420721_j22101901705595_2_alg».proof.Proof.RefRunP
import proofs.«420721_j22101901705595_2_alg».proof.Proof.RefReadP
-- ==== Proof.Consts.lean ====
/-
  The literals of both programs as real numbers: zero, one, a half, 2048, the norm floor ε > 0, the
  kernel's finite start of the running maximum, and -∞.
-/
import proofs.«420721_j22101901705595_2_alg».proof.Proof.Spec

noncomputable section

namespace Cert.Spec

open Idealize.ShloMosaic

/-- The real number the kernel starts its running maximum from. -/
def negBigR : ℝ := negBig.toReal
/-- The norm floor as a real. -/
def epsR : ℝ := eps.toReal

theorem zero_eq : zero = 0 := by simp [zero, Ideal.ofBits, Ideal.ieee]
theorem one_eq : one = 1 := by simp [one, Ideal.ofBits, Ideal.ieee, -EReal.coe_mul]; norm_num
theorem half_eq : half = ((1 / 2 : ℝ) : EReal) := by
  simp [half, Ideal.ofBits, Ideal.ieee, -EReal.coe_mul]; norm_num
theorem n2048_eq : n2048 = ((2048 : ℝ) : EReal) := by
  simp [n2048, Ideal.ofBits, Ideal.ieee, -EReal.coe_mul]; norm_num
theorem negInf_eq : negInf = ⊥ := by simp [negInf, Ideal.ofBits, Ideal.ieee]

/-- The pattern of the running maximum's start is a normal number: sign set, exponent field 254,
    significand field 0x333332. -/
theorem negBig_val : negBig = ((-(2 ^ 23 + 3355442 : ℕ) * (2 : ℝ) ^ (104 : ℤ) : ℝ) : EReal) := by
  simp [negBig, Ideal.ofBits, Ideal.ieee, -EReal.coe_mul]
/-- The norm floor's pattern is a normal number: sign clear, exponent field 87, significand field
    0x0CBCCC. -/
theorem eps_val : eps = (((2 ^ 23 + 834764 : ℕ) * (2 : ℝ) ^ (-63 : ℤ) : ℝ) : EReal) := by
  simp [eps, Ideal.ofBits, Ideal.ieee, -EReal.coe_mul]

theorem negBig_eq : negBig = (negBigR : EReal) := by
  rw [negBigR, negBig_val, EReal.toReal_coe]
theorem eps_eq : eps = (epsR : EReal) := by
  rw [epsR, eps_val, EReal.toReal_coe]
theorem epsR_pos : 0 < epsR := by
  rw [epsR, eps_val, EReal.toReal_coe]
  positivity

end Cert.Spec

end
-- ==== Proof.RefHard.lean ====
/-
  The reference's cross-entropy term, one row at a time: the row maximum, the shifted exponentials' sum and its
  logarithm give the log-softmax; the label (0 in place of the ignore index) is read as a column after jnp's
  index handling (a negative index would wrap, an index outside the row would give the fill value: for an
  admitted label neither happens and the column is the label itself); the ignore index selects zero.
-/
import proofs.«420721_j22101901705595_2_alg».proof.Proof.RefImports
import proofs.«420721_j22101901705595_2_alg».proof.Proof.Consts
import Idealize.ShloMosaic.Lib.StableHlo.Predicate
import Idealize.ShloMosaic.Lib.Affine

noncomputable section

namespace Cert.ReferenceIdeal.RefValue

open Cert.ReferenceIdeal Cert.ReferenceIdeal.Gen Cert.ReferenceIdeal.ReadP Idealize.ShloMosaic Idealize.ShloMosaic.ValueIdx

/-- The student logits as the reference computes them, at row r and column c. -/
theorem logits_apply (x0 : (⟨S2048x512, .f32⟩ : BufTy).Contents (Elt Ideal)) (x1 : (⟨S32000x512, .f32⟩ : BufTy).Contents (Elt Ideal))
    (r : Fin 2048) (c : Fin 32000) :
    val_main_v0 (F := Ideal) x0 x1 (ix2 r c) = Cert.Spec.logit (Cert.Spec.mat x0) (Cert.Spec.mat x1) r c := by
  rw [val_main_v0_apply]
  unfold Cert.Spec.logit
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 c k :=
    funext fun a => Fin.ext (by match a with | ⟨0, _⟩ => rfl | ⟨1, _⟩ => rfl)
  rw [el, er]

/-- The reduced row's index with a column inserted is the index (row, column). -/
private theorem lift_row (h : S2048x32000.Reduces [1] S2048) (r : Fin 2048) (k : Fin 32000) :
    h.lift (ix1 r) k = ix2 r k :=
  funext fun a => Fin.ext (by match a with | ⟨0, _⟩ => rfl | ⟨1, _⟩ => rfl)

/-- The row's maximum as the reference takes it: the maximum, against -∞, of the fold of max from -∞ over the row. -/
private theorem rowMax_apply (x0 : (⟨S2048x512, .f32⟩ : BufTy).Contents (Elt Ideal)) (x1 : (⟨S32000x512, .f32⟩ : BufTy).Contents (Elt Ideal))
    (r : Fin 2048) :
    val_main_call0_v2 (F := Ideal) x0 x1 (ix1 r)
      = Cert.Spec.rowMax (Cert.Spec.logit (Cert.Spec.mat x0) (Cert.Spec.mat x1) r) := by
  have h : S2048x32000.Reduces [1] S2048 := by decide
  rw [val_main_call0_v2_apply, val_main_call0_v1_apply, val_main_call0_cst_0_apply]
  unfold val_main_call0_v0
  rw [Host.reduce_eq_fold_single FloatOps.maximumf _ _ reducesTo_S2048x32000_S2048_d1 h h_S_ (ix1 r)]
  unfold Cert.Spec.rowMax Cert.Spec.negInf
  refine congrArg (max _) ?_
  refine Finset.fold_congr fun k _ => ?_
  exact (congrArg (val_main_v0 (F := Ideal) x0 x1) (lift_row h r k)).trans (logits_apply x0 x1 r k)

/-- The shifted logit at (r, c): the logit minus the row's maximum. -/
private theorem shift_apply (x0 : (⟨S2048x512, .f32⟩ : BufTy).Contents (Elt Ideal)) (x1 : (⟨S32000x512, .f32⟩ : BufTy).Contents (Elt Ideal))
    (r : Fin 2048) (c : Fin 32000) :
    val_main_call0_v5 (F := Ideal) x0 x1 (ix2 r c)
      = Cert.Spec.logit (Cert.Spec.mat x0) (Cert.Spec.mat x1) r c
        - Cert.Spec.rowMax (Cert.Spec.logit (Cert.Spec.mat x0) (Cert.Spec.mat x1) r) := by
  have e : idx_main_call0_v3 (idx_main_call0_v4 (ix2 r c)) = ix1 r :=
    funext fun a => Fin.ext (by match a with | ⟨0, _⟩ => rfl)
  rw [val_main_call0_v5_apply, val_main_call0_v4_apply, val_main_call0_v3_apply, logits_apply, e, rowMax_apply,
    Ideal.subf_def]

/-- The row's sum of shifted exponentials, from zero. -/
private theorem sumExp_apply (x0 : (⟨S2048x512, .f32⟩ : BufTy).Contents (Elt Ideal)) (x1 : (⟨S32000x512, .f32⟩ : BufTy).Contents (Elt Ideal))
    (r : Fin 2048) :
    val_main_call0_v7 (F := Ideal) x0 x1 (ix1 r)
      = Cert.Spec.zero + ∑ c : Fin 32000, Ideal.exp (Cert.Spec.logit (Cert.Spec.mat x0) (Cert.Spec.mat x1) r c
          - Cert.Spec.rowMax (Cert.Spec.logit (Cert.Spec.mat x0) (Cert.Spec.mat x1) r)) := by
  rw [val_main_call0_v7_apply, val_main_call0_cst_1_apply]
  unfold Cert.Spec.zero
  refine congrArg (Ideal.ofBits .f32 0x00000000#32 + ·) (Finset.sum_congr rfl fun k _ => ?_)
  have e : idx_main_call0_v7 (ix1 r) k = ix2 r k :=
    funext fun a => Fin.ext (by match a with | ⟨0, _⟩ => rfl | ⟨1, _⟩ => rfl)
  rw [val_main_call0_v6_apply, e, shift_apply, Ideal.hostUnary_exp_def]

/-- The reference's log-probability at (r, c) is the row's log-softmax at c. -/
private theorem logp_apply (x0 : (⟨S2048x512, .f32⟩ : BufTy).Contents (Elt Ideal)) (x1 : (⟨S32000x512, .f32⟩ : BufTy).Contents (Elt Ideal))
    (r : Fin 2048) (c : Fin 32000) :
    val_main_v2 (F := Ideal) x0 x1 (ix2 r c)
      = Cert.Spec.logp (Cert.Spec.logit (Cert.Spec.mat x0) (Cert.Spec.mat x1) r) c := by
  have e : idx_main_call0_v8 (idx_main_call0_v10 (ix2 r c)) = ix1 r :=
    funext fun a => Fin.ext (by match a with | ⟨0, _⟩ => rfl)
  rw [val_main_v2_apply, val_main_call0_v10_apply, val_main_call0_v9_apply, val_main_call0_v8_apply, shift_apply, e,
    sumExp_apply, Ideal.subf_def, Ideal.hostUnary_log_def]
  unfold Cert.Spec.logp
  rfl

/-! ## The label as a column -/

/-- The mask bit is 0 at the ignore index … -/
private theorem mask_ignore (x4 : (⟨S2048, .i32⟩ : BufTy).Contents (Elt Ideal)) (i : S2048.Idx)
    (h : x4 i = Cert.Spec.ignoreIdx) : val_main_v4 (F := Ideal) x4 i = 0#1 := by
  rw [val_main_v4_apply, val_main_v3_apply, val_main_c_apply, h]
  decide

/-- … and 1 at every other label. -/
private theorem mask_valid (x4 : (⟨S2048, .i32⟩ : BufTy).Contents (Elt Ideal)) (i : S2048.Idx)
    (h : x4 i ≠ Cert.Spec.ignoreIdx) : val_main_v4 (F := Ideal) x4 i = 1#1 := by
  rw [val_main_v4_apply, val_main_v3_apply, val_main_c_apply]
  exact IntOp.cmpi_ne.mpr h

/-- A fold of `and` from 1 over bits that are all 1 is 1. -/
private theorem fold_andi_one {ι : Type} (s : Finset ι) (f : ι → BitVec 1) (hf : ∀ k, f k = 1#1) :
    s.fold IntOp.andi 1#1 f = 1#1 := by
  induction s using Finset.cons_induction with
  | empty => rfl
  | cons a s ha ih => rw [Finset.fold_cons, ih, hf a]; decide

section Row

variable (x4 : (⟨S2048, .i32⟩ : BufTy).Contents (Elt Ideal)) (r : Fin 2048)
  (hv : x4 (ix1 r) ≠ Cert.Spec.ignoreIdx) (hlt : (x4 (ix1 r)).toNat < 32000)
include hv hlt

/-- A class index read as a signed integer is itself. -/
private theorem label_toInt : (x4 (ix1 r)).toInt = ((x4 (ix1 r)).toNat : Int) :=
  BitVec.toInt_eq_toNat_of_lt (by omega)

/-- After the index handling (a negative index would wrap) the start index in row r is the label. -/
private theorem lab5 (i : S2048x1x1.Idx) (h0 : (i 0).val = r.val) :
    val_main_call2_v5 (F := Ideal) x4 i = x4 (ix1 r) := by
  have h1 : (i 1).val < 1 := (i 1).isLt
  have h2 : (i 2).val < 1 := (i 2).isLt
  have e : idx_main_v6 (idx_main_call2_v5 i) = ix1 r :=
    funext fun a => Fin.ext (by
      match a with
      | ⟨0, _⟩ => show (((i 0).val * 1 + (i 1).val) * 1 + (i 2).val) / 1 = r.val; omega)
  have e6 : val_main_v6 (F := Ideal) x4 (idx_main_call2_v5 i) = x4 (ix1 r) := by
    rw [val_main_v6_apply, e, val_main_v5_apply, mask_valid x4 _ hv]
    exact select_one _ _
  have hs : IntOp.cmpi .slt (x4 (ix1 r)) 0#32 = 0#1 := eq_zero_of_ne_one fun h => by
    have := IntOp.cmpi_slt.mp h
    rw [label_toInt x4 r hv hlt, BitVec.toInt_zero] at this
    omega
  rw [val_main_call2_v5_apply, val_main_call2_v4_apply, val_main_call2_v1_apply, e6, val_main_call2_v0_apply,
    val_main_call2_c_apply, hs]
  exact select_zero _ _

/-- The bounds test 0 ≤ index ≤ 31999 holds in row r. -/
private theorem inb (i : S2048x1x1.Idx) (h0 : (i 0).val = r.val) : val_main_call2_v11 (F := Ideal) x4 i = 1#1 := by
  rw [val_main_call2_v11_apply, val_main_call2_v7_apply, val_main_call2_v10_apply, lab5 x4 r hv hlt i h0,
    val_main_call2_v6_apply, val_main_call2_c_2_apply, val_main_call2_v9_apply, val_main_call2_v8_apply,
    val_main_call2_c_1_apply]
  have h31 : (31999#32 : BitVec 32).toInt = 31999 := by decide
  refine IntOp.andi_eq_one.mpr ⟨IntOp.cmpi_sge.mpr ?_, IntOp.cmpi_sle.mpr ?_⟩
  · rw [label_toInt x4 r hv hlt, BitVec.toInt_zero]; omega
  · rw [label_toInt x4 r hv hlt, h31]; omega

/-- … so its reduction over the unit axis is 1. -/
private theorem inb_all : val_main_call2_v12 (F := Ideal) x4 (ix2 r 0) = 1#1 := by
  have h : S2048x1x1.Reduces [2] S2048x1 := by decide
  unfold val_main_call2_v12
  rw [Host.reduce_eq_fold_single IntOp.andi _ _ reducesTo_S2048x1x1_S2048x1_d2 h h_S_ (ix2 r 0), val_main_call2_c_3_apply]
  exact fold_andi_one _ _ fun k => inb x4 r hv hlt _ rfl

end Row

section Gather

local notation "gd" => gather_S2048x32000_S2048x1x1_S2048x1_n_1_0_0_1_2_11

variable (x4 : (⟨S2048, .i32⟩ : BufTy).Contents (Elt Ideal)) (r : Fin 2048)
  (hv : x4 (ix1 r) ≠ Cert.Spec.ignoreIdx) (hlt : (x4 (ix1 r)).toNat < 32000)
include hv hlt

/-- The gather in row r reads the log-probabilities of row r (the batching axis) at the label's column (the start
    index, which the clamp into [0, 31999] leaves alone). -/
private theorem gather_row (x0 : (⟨S2048x512, .f32⟩ : BufTy).Contents (Elt Ideal)) (x1 : (⟨S32000x512, .f32⟩ : BufTy).Contents (Elt Ideal)) :
    val_main_call2_v13 (F := Ideal) x0 x1 x4 (ix2 r 0)
      = val_main_v2 (F := Ideal) x0 x1 (ix2 r (Cert.Spec.colOf (x4 (ix1 r)))) := by
  unfold val_main_call2_v13 Host.gather
  refine congrArg (val_main_v2 (F := Ideal) x0 x1) (funext fun a => Fin.ext ?_)
  match a with
  | ⟨0, _⟩ =>
    show GatherDims.start gd (ix2 r 0) (val_main_call2_v5 (F := Ideal) x4) 0 + GatherDims.batchCoord gd (ix2 r 0) 0
      + GatherDims.offCoord gd (ix2 r 0) 0 = r.val
    rw [GatherDims.start_batching gd (ix2 r 0) (val_main_call2_v5 (F := Ideal) x4) 0 (by decide),
      GatherDims.offCoord_eq_zero gd (ix2 r 0) 0 (by decide), Nat.zero_add, Nat.add_zero]
    rfl
  | ⟨1, _⟩ =>
    show GatherDims.start gd (ix2 r 0) (val_main_call2_v5 (F := Ideal) x4) 1 + GatherDims.batchCoord gd (ix2 r 0) 1
      + GatherDims.offCoord gd (ix2 r 0) 1 = (x4 (ix1 r)).toNat % 32000
    rw [GatherDims.batchCoord_eq_zero gd (ix2 r 0) 1 (by decide), GatherDims.offCoord_eq_zero gd (ix2 r 0) 1 (by decide)]
    simp only [Nat.add_zero]
    unfold GatherDims.start
    rw [dif_pos (show (1 : Fin S2048x32000.rank) ∈ GatherDims.startIndexMap gd by decide), lab5 x4 r hv hlt _ rfl,
      label_toInt x4 r hv hlt, Int.toNat_natCast]
    show min (x4 (ix1 r)).toNat (32000 - 1) = (x4 (ix1 r)).toNat % 32000
    omega

end Gather

/-- Row r of the masked negative log-likelihood. -/
theorem hard_row (x0 : (⟨S2048x512, .f32⟩ : BufTy).Contents (Elt Ideal)) (x1 : (⟨S32000x512, .f32⟩ : BufTy).Contents (Elt Ideal))
    (x4 : (⟨S2048, .i32⟩ : BufTy).Contents (Elt Ideal)) (hL : Cert.Spec.LabelsOk (Cert.Spec.vec1 x4)) (r : Fin 2048) :
    val_main_v10 (F := Ideal) x0 x1 x4 (ix1 r)
      = Cert.Spec.rHard (Cert.Spec.logit (Cert.Spec.mat x0) (Cert.Spec.mat x1) r) (Cert.Spec.vec1 x4 r) := by
  unfold Cert.Spec.rHard
  rw [val_main_v10_apply]
  by_cases hi : Cert.Spec.vec1 x4 r = Cert.Spec.ignoreIdx
  · rw [if_pos hi, mask_ignore x4 (ix1 r) hi, select_zero, val_main_call3_v1_apply, val_main_call3_v0_apply,
      val_main_cst_apply]
    rfl
  · have hlt : (x4 (ix1 r)).toNat < 32000 := (hL r).resolve_left hi
    have e8 : idx_main_v8 (ix1 r) = ix2 r 0 :=
      funext fun a => Fin.ext (by
        match a with
        | ⟨0, _⟩ => show r.val / 1 = r.val; omega
        | ⟨1, _⟩ => rfl)
    rw [if_neg hi, mask_valid x4 (ix1 r) hi, select_one, val_main_v9_apply, val_main_v8_apply, e8, val_main_v7_apply,
      inb_all x4 r hi hlt, select_one, gather_row x4 r hi hlt x0 x1, logp_apply, Ideal.hostNegf_def, Ideal.negf_def]

end Cert.ReferenceIdeal.RefValue

end
-- ==== Proof.RefSoft.lean ====
/-
  The reference's cosine term, one row at a time: both logit rows divided by the temperature 1, each divided
  by its norm (floored at ε), the products summed over the row, and the sum taken from 1.
-/
import proofs.«420721_j22101901705595_2_alg».proof.Proof.RefImports
import proofs.«420721_j22101901705595_2_alg».proof.Proof.Consts

noncomputable section

namespace Cert.ReferenceIdeal.RefValue

open Cert.ReferenceIdeal Cert.ReferenceIdeal.Gen Cert.ReferenceIdeal.ReadP Idealize.ShloMosaic Idealize.ShloMosaic.ValueIdx

/-! ## The index maps of the operations, at an index given by its coordinates -/

/-- A contraction reads the left operand at (row, k). -/
private theorem lidx_v0 (r : Fin 2048) (c : Fin 32000) (k : Fin 512) : lidx_main_v0 (ix2 r c) k = ix2 r k :=
  funext fun a => Fin.ext (by match a with | ⟨0, _⟩ => rfl | ⟨1, _⟩ => rfl)
/-- A contraction reads the right operand at (column, k). -/
private theorem ridx_v0 (r : Fin 2048) (c : Fin 32000) (k : Fin 512) : ridx_main_v0 (ix2 r c) k = ix2 c k :=
  funext fun a => Fin.ext (by match a with | ⟨0, _⟩ => rfl | ⟨1, _⟩ => rfl)
private theorem lidx_v1 (r : Fin 2048) (c : Fin 32000) (k : Fin 512) : lidx_main_v1 (ix2 r c) k = ix2 r k :=
  funext fun a => Fin.ext (by match a with | ⟨0, _⟩ => rfl | ⟨1, _⟩ => rfl)
private theorem ridx_v1 (r : Fin 2048) (c : Fin 32000) (k : Fin 512) : ridx_main_v1 (ix2 r c) k = ix2 c k :=
  funext fun a => Fin.ext (by match a with | ⟨0, _⟩ => rfl | ⟨1, _⟩ => rfl)

/-- A row sum reads its operand along the row. -/
private theorem idx_v18 (r : Fin 2048) (k : Fin 32000) : idx_main_v18 (ix1 r) k = ix2 r k :=
  funext fun a => Fin.ext (by match a with | ⟨0, _⟩ => rfl | ⟨1, _⟩ => rfl)
private theorem idx_v26 (r : Fin 2048) (k : Fin 32000) : idx_main_v26 (ix1 r) k = ix2 r k :=
  funext fun a => Fin.ext (by match a with | ⟨0, _⟩ => rfl | ⟨1, _⟩ => rfl)
private theorem idx_v34 (r : Fin 2048) (k : Fin 32000) : idx_main_v34 (ix1 r) k = ix2 r k :=
  funext fun a => Fin.ext (by match a with | ⟨0, _⟩ => rfl | ⟨1, _⟩ => rfl)

/-- The column of row norms is the vector of row norms. -/
private theorem idx_v19 (r : Fin 2048) (z : Fin 1) : idx_main_v19 (ix2 r z) = ix1 r :=
  funext fun a => Fin.ext (by match a with | ⟨0, _⟩ => rfl)
private theorem idx_v27 (r : Fin 2048) (z : Fin 1) : idx_main_v27 (ix2 r z) = ix1 r :=
  funext fun a => Fin.ext (by match a with | ⟨0, _⟩ => rfl)

/-- Every column of a row reads the row's one norm. -/
private theorem idx_v23 (r : Fin 2048) (c : Fin 32000) : idx_main_v23 (ix2 r c) = ix2 r (0 : Fin 1) :=
  funext fun a => Fin.ext (by match a with | ⟨0, _⟩ => rfl | ⟨1, _⟩ => rfl)
private theorem idx_v31 (r : Fin 2048) (c : Fin 32000) : idx_main_v31 (ix2 r c) = ix2 r (0 : Fin 1) :=
  funext fun a => Fin.ext (by match a with | ⟨0, _⟩ => rfl | ⟨1, _⟩ => rfl)

/-! ## The logits -/

/-- The student logits as the reference computes them, at row r and column c. -/
private theorem slogits_apply' (x0 : (⟨S2048x512, .f32⟩ : BufTy).Contents (Elt Ideal)) (x1 : (⟨S32000x512, .f32⟩ : BufTy).Contents (Elt Ideal))
    (r : Fin 2048) (c : Fin 32000) :
    val_main_v0 (F := Ideal) x0 x1 (ix2 r c) = Cert.Spec.logit (Cert.Spec.mat x0) (Cert.Spec.mat x1) r c := by
  rw [val_main_v0_apply]
  unfold Cert.Spec.logit
  refine Finset.sum_congr rfl fun k _ => ?_
  rw [lidx_v0, ridx_v0]

/-- The teacher logits as the reference computes them, at row r and column c. -/
theorem tlogits_apply (x2 : (⟨S2048x512, .f32⟩ : BufTy).Contents (Elt Ideal)) (x3 : (⟨S32000x512, .f32⟩ : BufTy).Contents (Elt Ideal))
    (r : Fin 2048) (c : Fin 32000) :
    val_main_v1 (F := Ideal) x2 x3 (ix2 r c) = Cert.Spec.logit (Cert.Spec.mat x2) (Cert.Spec.mat x3) r c := by
  rw [val_main_v1_apply]
  unfold Cert.Spec.logit
  refine Finset.sum_congr rfl fun k _ => ?_
  rw [lidx_v1, ridx_v1]

/-! ## Division by the temperature -/

/-- The student logits over the temperature. -/
private theorem sdiv_apply (x0 : (⟨S2048x512, .f32⟩ : BufTy).Contents (Elt Ideal)) (x1 : (⟨S32000x512, .f32⟩ : BufTy).Contents (Elt Ideal))
    (r : Fin 2048) (c : Fin 32000) :
    val_main_v14 (F := Ideal) x0 x1 (ix2 r c) = Cert.Spec.dv (Cert.Spec.logit (Cert.Spec.mat x0) (Cert.Spec.mat x1) r c) := by
  rw [val_main_v14_apply, val_main_v13_apply, val_main_cst_3_apply, slogits_apply']
  rfl

/-- The teacher logits over the temperature. -/
private theorem tdiv_apply (x2 : (⟨S2048x512, .f32⟩ : BufTy).Contents (Elt Ideal)) (x3 : (⟨S32000x512, .f32⟩ : BufTy).Contents (Elt Ideal))
    (r : Fin 2048) (c : Fin 32000) :
    val_main_v16 (F := Ideal) x2 x3 (ix2 r c) = Cert.Spec.dv (Cert.Spec.logit (Cert.Spec.mat x2) (Cert.Spec.mat x3) r c) := by
  rw [val_main_v16_apply, val_main_v15_apply, val_main_cst_4_apply, tlogits_apply]
  rfl

/-! ## The floored norms -/

/-- The student row's norm, floored at ε, as the column the reference keeps it in. -/
private theorem snrm_apply (x0 : (⟨S2048x512, .f32⟩ : BufTy).Contents (Elt Ideal)) (x1 : (⟨S32000x512, .f32⟩ : BufTy).Contents (Elt Ideal))
    (r : Fin 2048) (z : Fin 1) :
    val_main_v22 (F := Ideal) x0 x1 (ix2 r z) = Cert.Spec.nrm (Cert.Spec.logit (Cert.Spec.mat x0) (Cert.Spec.mat x1) r) := by
  have hsum : ∑ k : Fin 32000, val_main_v17 (F := Ideal) x0 x1 (idx_main_v18 (ix1 r) k)
      = ∑ c : Fin 32000, Cert.Spec.dv (Cert.Spec.logit (Cert.Spec.mat x0) (Cert.Spec.mat x1) r c)
          * Cert.Spec.dv (Cert.Spec.logit (Cert.Spec.mat x0) (Cert.Spec.mat x1) r c) :=
    Finset.sum_congr rfl fun k _ => by rw [idx_v18, val_main_v17_apply, sdiv_apply]; rfl
  rw [val_main_v22_apply, val_main_v21_apply, val_main_cst_6_apply, val_main_v20_apply, val_main_v19_apply, idx_v19,
    val_main_v18_apply, val_main_cst_5_apply, hsum]
  simp only [Ideal.maximumf_def, Ideal.hostUnary_sqrt_def, Ideal.ofBits_def]
  unfold Cert.Spec.nrm Cert.Spec.zero Cert.Spec.eps
  rfl

/-- The teacher row's norm, floored at ε, as the column the reference keeps it in. -/
private theorem tnrm_apply (x2 : (⟨S2048x512, .f32⟩ : BufTy).Contents (Elt Ideal)) (x3 : (⟨S32000x512, .f32⟩ : BufTy).Contents (Elt Ideal))
    (r : Fin 2048) (z : Fin 1) :
    val_main_v30 (F := Ideal) x2 x3 (ix2 r z) = Cert.Spec.nrm (Cert.Spec.logit (Cert.Spec.mat x2) (Cert.Spec.mat x3) r) := by
  have hsum : ∑ k : Fin 32000, val_main_v25 (F := Ideal) x2 x3 (idx_main_v26 (ix1 r) k)
      = ∑ c : Fin 32000, Cert.Spec.dv (Cert.Spec.logit (Cert.Spec.mat x2) (Cert.Spec.mat x3) r c)
          * Cert.Spec.dv (Cert.Spec.logit (Cert.Spec.mat x2) (Cert.Spec.mat x3) r c) :=
    Finset.sum_congr rfl fun k _ => by rw [idx_v26, val_main_v25_apply, tdiv_apply]; rfl
  rw [val_main_v30_apply, val_main_v29_apply, val_main_cst_8_apply, val_main_v28_apply, val_main_v27_apply, idx_v27,
    val_main_v26_apply, val_main_cst_7_apply, hsum]
  simp only [Ideal.maximumf_def, Ideal.hostUnary_sqrt_def, Ideal.ofBits_def]
  unfold Cert.Spec.nrm Cert.Spec.zero Cert.Spec.eps
  rfl

/-! ## The row's cosine term -/

/-- Row r of one minus the cosine similarity. -/
theorem soft_row (x0 : (⟨S2048x512, .f32⟩ : BufTy).Contents (Elt Ideal)) (x1 : (⟨S32000x512, .f32⟩ : BufTy).Contents (Elt Ideal))
    (x2 : (⟨S2048x512, .f32⟩ : BufTy).Contents (Elt Ideal)) (x3 : (⟨S32000x512, .f32⟩ : BufTy).Contents (Elt Ideal)) (r : Fin 2048) :
    val_main_v36 (F := Ideal) x0 x1 x2 x3 (ix1 r)
      = Cert.Spec.one - Cert.Spec.rCos (Cert.Spec.logit (Cert.Spec.mat x0) (Cert.Spec.mat x1) r)
          (Cert.Spec.logit (Cert.Spec.mat x2) (Cert.Spec.mat x3) r) := by
  have hsum : ∑ k : Fin 32000, val_main_v33 (F := Ideal) x0 x1 x2 x3 (idx_main_v34 (ix1 r) k)
      = ∑ c : Fin 32000, Ideal.div (Cert.Spec.dv (Cert.Spec.logit (Cert.Spec.mat x0) (Cert.Spec.mat x1) r c))
            (Cert.Spec.nrm (Cert.Spec.logit (Cert.Spec.mat x0) (Cert.Spec.mat x1) r))
          * Ideal.div (Cert.Spec.dv (Cert.Spec.logit (Cert.Spec.mat x2) (Cert.Spec.mat x3) r c))
            (Cert.Spec.nrm (Cert.Spec.logit (Cert.Spec.mat x2) (Cert.Spec.mat x3) r)) :=
    Finset.sum_congr rfl fun k _ => by
      rw [idx_v34, val_main_v33_apply, val_main_v24_apply, val_main_v32_apply, val_main_v23_apply, val_main_v31_apply,
        idx_v23, idx_v31, snrm_apply, tnrm_apply, sdiv_apply, tdiv_apply]
      rfl
  rw [val_main_v36_apply, val_main_v35_apply, val_main_cst_10_apply, val_main_v34_apply, val_main_cst_9_apply, hsum]
  rfl

end Cert.ReferenceIdeal.RefValue

end
-- ==== Proof.RefValue.lean ====
/-
  The reference's result from its two row terms: each is summed over the 2048 rows from zero and divided by 2048
  (the cosine sum first halved), and the two means are halved and added.
-/
import proofs.«420721_j22101901705595_2_alg».proof.Proof.RefHard
import proofs.«420721_j22101901705595_2_alg».proof.Proof.RefSoft
import Idealize.ShloMosaic.Lib.ValueIdxRank1

noncomputable section

namespace Cert.ReferenceIdeal.RefValue

open Cert.ReferenceIdeal Cert.ReferenceIdeal.Gen Cert.ReferenceIdeal.ReadP Idealize.ShloMosaic Idealize.ShloMosaic.ValueIdx

theorem result_eq (x0 : (⟨S2048x512, .f32⟩ : BufTy).Contents (Elt Ideal)) (x1 : (⟨S32000x512, .f32⟩ : BufTy).Contents (Elt Ideal))
    (x2 : (⟨S2048x512, .f32⟩ : BufTy).Contents (Elt Ideal)) (x3 : (⟨S32000x512, .f32⟩ : BufTy).Contents (Elt Ideal))
    (x4 : (⟨S2048, .i32⟩ : BufTy).Contents (Elt Ideal)) (hL : Cert.Spec.LabelsOk (Cert.Spec.vec1 x4)) :
    val_main_v42 (F := Ideal) x0 x1 x2 x3 x4
      = fun _ => Cert.Spec.rTotal (Cert.Spec.mat x0) (Cert.Spec.mat x1) (Cert.Spec.mat x2) (Cert.Spec.mat x3) (Cert.Spec.vec1 x4) := by
  funext j
  -- the sum of the cross-entropy terms over every index of the row vector is the sum over the rows
  have hhard : ∑ i : S2048.Idx, val_main_v10 (F := Ideal) x0 x1 x4 i
      = ∑ r : Fin 2048, Cert.Spec.rHard (Cert.Spec.logit (Cert.Spec.mat x0) (Cert.Spec.mat x1) r) (Cert.Spec.vec1 x4 r) := by
    rw [← Equiv.sum_comp (idxEquiv1 (n := 2048)).symm]
    exact Finset.sum_congr rfl fun r _ => hard_row x0 x1 x4 hL r
  -- and the same for the cosine terms
  have hsoft : ∑ i : S2048.Idx, val_main_v36 (F := Ideal) x0 x1 x2 x3 i
      = ∑ r : Fin 2048, (Cert.Spec.one - Cert.Spec.rCos (Cert.Spec.logit (Cert.Spec.mat x0) (Cert.Spec.mat x1) r)
          (Cert.Spec.logit (Cert.Spec.mat x2) (Cert.Spec.mat x3) r)) := by
    rw [← Equiv.sum_comp (idxEquiv1 (n := 2048)).symm]
    exact Finset.sum_congr rfl fun r _ => soft_row x0 x1 x2 x3 r
  rw [val_main_v42_apply, val_main_v40_apply, val_main_v41_apply, val_main_v12_apply, val_main_v39_apply, val_main_v38_apply,
    val_main_v11_apply, val_main_v37_apply, hhard, hsoft, val_main_cst_14_apply, val_main_cst_15_apply, val_main_cst_2_apply,
    val_main_cst_13_apply, val_main_cst_12_apply, val_main_cst_1_apply, val_main_cst_11_apply]
  simp only [Ideal.addf_def, Ideal.mulf_def, Ideal.hostDivf_def, Ideal.ofBits_def]
  unfold Cert.Spec.rTotal Cert.Spec.half Cert.Spec.n2048 Cert.Spec.zero
  rfl

end Cert.ReferenceIdeal.RefValue

end
-- ==== Proof.MathFold.lean ====
/-
  The kernel's 25-chunk walk in closed form, for a row of real logits: the running maximum ends at the
  larger of its start value and the row's maximum; the rescaled sum ends at the sum of exp(s - m) over the
  whole row (each rescaling multiplies the old sum by exp(m_old - m_new), and exp turns the difference into
  a quotient); the other four are plain sums split into 25 chunks of 1280 columns.
-/
import proofs.«420721_j22101901705595_2_alg».proof.Proof.Consts
import Mathlib.Data.Finset.Fold
import Mathlib.Data.Finset.Lattice.Fold
import Mathlib.Data.EReal.Operations
import Mathlib.Algebra.BigOperators.Group.Finset.Basic
import Mathlib.Analysis.Complex.Exponential

noncomputable section

namespace Cert.Spec

open Idealize.ShloMosaic

/-- The maximum the kernel ends with. -/
def mK (s : Fin 32000 → ℝ) : ℝ := max negBigR (Finset.univ.sup' Finset.univ_nonempty s)

/-! ## The columns of the first n chunks -/

/-- The columns the first n chunks cover: those numbered below 1280·n. -/
def cols (n : ℕ) : Finset (Fin 32000) := Finset.univ.filter (fun c => c.val < 1280 * n)

theorem mem_cols (n : ℕ) (c : Fin 32000) : c ∈ cols n ↔ c.val < 1280 * n := by
  simp [cols]

theorem col_val (v : Fin 25) (j : Fin 1280) : (col v j).val = 1280 * v.val + j.val := rfl

/-- Within one chunk, distinct offsets name distinct columns. -/
theorem col_injective (v : Fin 25) : Function.Injective (col v) := by
  intro a b hab
  have h := congrArg Fin.val hab
  simp only [col_val] at h
  exact Fin.ext (by omega)

/-- One more chunk adds exactly that chunk's 1280 columns. -/
theorem cols_succ (n : ℕ) (h : n < 25) :
    cols (n + 1) = cols n ∪ Finset.univ.image (col ⟨n, h⟩) := by
  ext c
  simp only [mem_cols, Finset.mem_union, Finset.mem_image, Finset.mem_univ, true_and]
  constructor
  · intro hc
    by_cases h1 : c.val < 1280 * n
    · exact Or.inl h1
    · refine Or.inr ⟨⟨c.val - 1280 * n, by omega⟩, Fin.ext ?_⟩
      simp only [col_val]
      omega
  · rintro (h1 | ⟨j, rfl⟩)
    · omega
    · simp only [col_val]
      have := j.isLt
      omega

/-- The new chunk's columns are none of the earlier ones. -/
theorem cols_disj (n : ℕ) (h : n < 25) : Disjoint (cols n) (Finset.univ.image (col ⟨n, h⟩)) := by
  rw [Finset.disjoint_left]
  intro c hc hc'
  rw [mem_cols] at hc
  obtain ⟨j, -, rfl⟩ := Finset.mem_image.mp hc'
  simp only [col_val] at hc
  omega

/-- A sum over the first n+1 chunks is the sum over the first n plus the sum over chunk n. -/
theorem sum_cols_succ (F : Fin 32000 → ℝ) (n : ℕ) (h : n < 25) :
    ∑ c ∈ cols (n + 1), F c = ∑ c ∈ cols n, F c + ∑ j : Fin 1280, F (col ⟨n, h⟩ j) := by
  rw [cols_succ n h, Finset.sum_union (cols_disj n h),
    Finset.sum_image (fun a _ b _ hab => col_injective _ hab)]

/-- After all 25 chunks every column has been seen. -/
theorem cols_25 : cols 25 = Finset.univ := by
  ext c
  simp only [mem_cols, Finset.mem_univ, iff_true]
  have := c.isLt
  omega

/-! ## Real numbers inside the extended reals -/

theorem coe_max' (a b : ℝ) : ((max a b : ℝ) : EReal) = max (a : EReal) (b : EReal) :=
  EReal.coe_strictMono.monotone.map_max

/-- The embedding of the reals carries finite sums to finite sums. -/
theorem coe_sum' {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- -∞ is neutral for max: folding from -∞ and then taking max with a is folding from a. -/
theorem fold_max_bot {ι : Type} (S : Finset ι) (a : EReal) (g : ι → EReal) :
    max a (S.fold max ⊥ g) = S.fold max a g := by
  classical
  induction S using Finset.induction_on with
  | empty => simp
  | insert x S hx ih => rw [Finset.fold_insert hx, Finset.fold_insert hx, ← ih, max_left_comm]

/-- A max-fold of real numbers, computed in the extended reals, is the real max-fold. -/
theorem fold_max_coe {ι : Type} (S : Finset ι) (a : ℝ) (f : ι → ℝ) :
    S.fold max (a : EReal) (fun i => ((f i : ℝ) : EReal)) = ((S.fold max a f : ℝ) : EReal) := by
  classical
  induction S using Finset.induction_on with
  | empty => simp
  | insert x S hx ih => rw [Finset.fold_insert hx, Finset.fold_insert hx, ih, coe_max']

/-! ## One chunk's update on real-valued state -/

/-- On a state of real numbers, one chunk's update stays real: the new maximum is the max-fold of the
    chunk's logits from the old maximum, the old sum is rescaled by exp(m_old - m_new), and the
    remaining fields add the chunk's partial sums. -/
theorem step_coe (s t : Fin 32000 → ℝ) (ℓ : BitVec 32) (v : Fin 25) (mo z g a b c : ℝ) :
    step (fun c => ((s c : ℝ) : EReal)) (fun c => ((t c : ℝ) : EReal)) ℓ v
        ⟨(mo : EReal), (z : EReal), (g : EReal), (a : EReal), (b : EReal), (c : EReal)⟩ =
      { m := (((Finset.univ : Finset (Fin 1280)).fold max mo (fun j => s (col v j)) : ℝ) : EReal)
        z := ((Real.exp (mo - (Finset.univ : Finset (Fin 1280)).fold max mo (fun j => s (col v j))) * z
              + ∑ j : Fin 1280, Real.exp (s (col v j)
                  - (Finset.univ : Finset (Fin 1280)).fold max mo (fun j => s (col v j))) : ℝ) : EReal)
        g := ((g + ∑ j : Fin 1280, (if BitVec.ofNat 32 (col v j).val = ℓ then s (col v j) else 0) : ℝ) : EReal)
        st := ((a + ∑ j : Fin 1280, s (col v j) * t (col v j) : ℝ) : EReal)
        ss := ((b + ∑ j : Fin 1280, s (col v j) * s (col v j) : ℝ) : EReal)
        tt := ((c + ∑ j : Fin 1280, t (col v j) * t (col v j) : ℝ) : EReal) } := by
  have hm : max (mo : EReal)
        ((Finset.univ : Finset (Fin 1280)).fold max negInf (fun j => ((s (col v j) : ℝ) : EReal)))
      = (((Finset.univ : Finset (Fin 1280)).fold max mo (fun j => s (col v j)) : ℝ) : EReal) := by
    rw [negInf_eq, fold_max_bot, fold_max_coe]
  simp only [step, hm, St.mk.injEq, true_and]
  refine ⟨?_, ?_, ?_, ?_, ?_⟩
  · rw [EReal.coe_add, EReal.coe_mul, coe_sum']
    simp only [← EReal.coe_sub, Ideal.exp_coe]
  · rw [EReal.coe_add, coe_sum', zero_eq]
    congr 1
    refine Finset.sum_congr rfl (fun j _ => ?_)
    split_ifs <;> simp
  · rw [EReal.coe_add, coe_sum']
    simp only [EReal.coe_mul]
  · rw [EReal.coe_add, coe_sum']
    simp only [EReal.coe_mul]
  · rw [EReal.coe_add, coe_sum']
    simp only [EReal.coe_mul]

/-! ## The walk in closed form after n chunks -/

/-- The running maximum after n chunks: the max-fold of the seen logits from the start value. -/
def mAt (s : Fin 32000 → ℝ) (n : ℕ) : ℝ := (cols n).fold max negBigR s

/-- The six numbers after n chunks, as sums over the seen columns. -/
def clAt (s t : Fin 32000 → ℝ) (ℓ : BitVec 32) (n : ℕ) : St :=
  { m := ((mAt s n : ℝ) : EReal)
    z := ((∑ c ∈ cols n, Real.exp (s c - mAt s n) : ℝ) : EReal)
    g := ((∑ c ∈ cols n, (if BitVec.ofNat 32 c.val = ℓ then s c else 0) : ℝ) : EReal)
    st := ((∑ c ∈ cols n, s c * t c : ℝ) : EReal)
    ss := ((∑ c ∈ cols n, s c * s c : ℝ) : EReal)
    tt := ((∑ c ∈ cols n, t c * t c : ℝ) : EReal) }

/-- The maximum over one more chunk is the max-fold of that chunk's logits from the previous maximum:
    both sides have the same upper bounds. -/
theorem mAt_succ (s : Fin 32000 → ℝ) (n : ℕ) (h : n < 25) :
    mAt s (n + 1) = (Finset.univ : Finset (Fin 1280)).fold max (mAt s n) (fun j => s (col ⟨n, h⟩ j)) := by
  apply eq_of_forall_ge_iff
  intro c
  unfold mAt
  simp only [Finset.fold_max_le, cols_succ n h, Finset.mem_union, Finset.mem_image, Finset.mem_univ,
    true_and]
  constructor
  · rintro ⟨h0, h1⟩
    exact ⟨⟨h0, fun x hx => h1 x (Or.inl hx)⟩, fun j _ => h1 _ (Or.inr ⟨j, rfl⟩)⟩
  · rintro ⟨⟨h0, h1⟩, h2⟩
    refine ⟨h0, ?_⟩
    rintro x (hx | ⟨j, rfl⟩)
    · exact h1 x hx
    · exact h2 j trivial

/-- After all chunks the running maximum is the larger of the start value and the row's maximum. -/
theorem mAt_25 (s : Fin 32000 → ℝ) : mAt s 25 = mK s := by
  unfold mAt mK
  rw [cols_25]
  apply eq_of_forall_ge_iff
  intro c
  simp only [Finset.fold_max_le, max_le_iff, Finset.sup'_le_iff]

/-- Induction over the chunks: the walk's state is the closed form over the seen columns. -/
theorem stAt_eq_clAt (s t : Fin 32000 → ℝ) (ℓ : BitVec 32) :
    ∀ n : ℕ, n ≤ 25 →
      stAt (fun c => ((s c : ℝ) : EReal)) (fun c => ((t c : ℝ) : EReal)) ℓ n = clAt s t ℓ n
  | 0, _ => by
    have h0 : cols 0 = ∅ := by
      ext c
      simp [mem_cols]
    simp [stAt, st0, clAt, mAt, h0, negBig_eq, zero_eq]
  | n + 1, hn => by
    have h : n < 25 := by omega
    rw [stAt, dif_pos h, stAt_eq_clAt s t ℓ n (by omega)]
    unfold clAt
    rw [step_coe, ← mAt_succ s n h]
    simp only [St.mk.injEq, EReal.coe_eq_coe_iff, true_and]
    refine ⟨?_, ?_, ?_, ?_, ?_⟩
    · -- exp(m_old - m_new) · Σ exp(s - m_old) = Σ exp(s - m_new)
      have hres : ∀ c ∈ cols n,
          Real.exp (mAt s n - mAt s (n + 1)) * Real.exp (s c - mAt s n)
            = Real.exp (s c - mAt s (n + 1)) := by
        intro c _
        rw [← Real.exp_add]
        exact congrArg Real.exp (by ring)
      rw [sum_cols_succ _ n h, Finset.mul_sum, Finset.sum_congr rfl hres]
    · rw [sum_cols_succ _ n h]
    · rw [sum_cols_succ _ n h]
    · rw [sum_cols_succ _ n h]
    · rw [sum_cols_succ _ n h]

theorem stAt_closed (s t : Fin 32000 → ℝ) (ℓ : BitVec 32) :
    stAt (fun c => ((s c : ℝ) : EReal)) (fun c => ((t c : ℝ) : EReal)) ℓ 25 =
      { m := ((mK s : ℝ) : EReal)
        z := ((∑ c : Fin 32000, Real.exp (s c - mK s) : ℝ) : EReal)
        g := ((∑ c : Fin 32000, (if BitVec.ofNat 32 c.val = ℓ then s c else 0) : ℝ) : EReal)
        st := ((∑ c : Fin 32000, s c * t c : ℝ) : EReal)
        ss := ((∑ c : Fin 32000, s c * s c : ℝ) : EReal)
        tt := ((∑ c : Fin 32000, t c * t c : ℝ) : EReal) } := by
  rw [stAt_eq_clAt s t ℓ 25 le_rfl]
  unfold clAt
  rw [mAt_25, cols_25]

end Cert.Spec

end
-- ==== Proof.MathRow.lean ====
/-
  One row: the kernel's combination of its six numbers is the reference's whole-row formulas.
  log-sum-exp does not depend on the shift: m + log Σ exp(s - m) is the same for every real m, so the kernel's
  shift (which may be its finite start value) and the reference's (the row maximum) agree; the equality test
  on the column number picks exactly the label's logit; and Σ (s/a)(t/b) = (Σ s t)/(a b) for positive a, b.
-/
import proofs.«420721_j22101901705595_2_alg».proof.Proof.MathFold

noncomputable section

namespace Cert.Spec

open Idealize.ShloMosaic

namespace MathRow

/-! ### Coercions of reals into the extended reals commute with finite sums and with max -/

/-- The coercion of a finite real sum is the sum of the coercions. -/
theorem coe_sum {ι : Type} (S : Finset ι) (f : ι → ℝ) :
    ((∑ i ∈ S, f i : ℝ) : EReal) = ∑ i ∈ S, (f i : EReal) := by
  classical
  refine Finset.induction_on S ?_ ?_
  · simp
  · intro a S ha ih
    rw [Finset.sum_insert ha, Finset.sum_insert ha, EReal.coe_add, ih]

/-- The coercion is monotone, so it commutes with max. -/
theorem coe_max (x y : ℝ) : max (x : EReal) (y : EReal) = ((max x y : ℝ) : EReal) :=
  (EReal.coe_strictMono.monotone.map_max).symm

theorem zero_eq' : zero = ((0 : ℝ) : EReal) := zero_eq.trans EReal.coe_zero.symm
theorem one_eq' : one = ((1 : ℝ) : EReal) := one_eq.trans EReal.coe_one.symm

/-! ### The real quantities of a row -/

/-- The row maximum. -/
def rM (s : Fin 32000 → ℝ) : ℝ := Finset.univ.sup' Finset.univ_nonempty s

/-- The sum of the exponentials of a row shifted by a. -/
def Z (s : Fin 32000 → ℝ) (a : ℝ) : ℝ := ∑ c : Fin 32000, Real.exp (s c - a)

/-- The floored norm of a row. -/
def nR (s : Fin 32000 → ℝ) : ℝ := max (Real.sqrt (∑ c : Fin 32000, s c * s c)) epsR

theorem Z_pos (s : Fin 32000 → ℝ) (a : ℝ) : 0 < Z s a :=
  Finset.sum_pos (fun c _ => Real.exp_pos _) Finset.univ_nonempty

theorem nR_pos (s : Fin 32000 → ℝ) : 0 < nR s := lt_max_of_lt_right epsR_pos

theorem sq_sum_nonneg (s : Fin 32000 → ℝ) : 0 ≤ ∑ c : Fin 32000, s c * s c :=
  Finset.sum_nonneg (fun c _ => mul_self_nonneg (s c))

/-- log-sum-exp does not depend on the shift: a + log Σ exp(s - a) = log Σ exp(s). -/
theorem lse_shift (s : Fin 32000 → ℝ) (a : ℝ) : a + Real.log (Z s a) = Real.log (Z s 0) := by
  have h : Z s a = Z s 0 / Real.exp a := by
    unfold Z
    rw [Finset.sum_div]
    refine Finset.sum_congr rfl (fun c _ => ?_)
    rw [Real.exp_sub, sub_zero]
  rw [h, Real.log_div (Z_pos s 0).ne' (Real.exp_pos a).ne', Real.log_exp]
  ring

/-- The equality test on the column number picks exactly the label's logit. -/
theorem pick (s : Fin 32000 → ℝ) (ℓ : BitVec 32) (h : ℓ.toNat < 32000) :
    (∑ c : Fin 32000, (if BitVec.ofNat 32 c.val = ℓ then s c else 0)) = s (colOf ℓ) := by
  have key : ∀ c : Fin 32000, BitVec.ofNat 32 c.val = ℓ ↔ c = colOf ℓ := by
    intro c
    have hc := c.isLt
    constructor
    · intro heq
      have h1 := congrArg BitVec.toNat heq
      rw [BitVec.toNat_ofNat] at h1
      apply Fin.ext
      show c.val = ℓ.toNat % 32000
      omega
    · intro heq
      apply BitVec.eq_of_toNat_eq
      rw [BitVec.toNat_ofNat, heq]
      show (ℓ.toNat % 32000) % 2 ^ 32 = ℓ.toNat
      omega
  rw [Finset.sum_eq_single (colOf ℓ)]
  · rw [if_pos ((key _).mpr rfl)]
  · intro c _ hc
    rw [if_neg (fun hh => hc ((key c).mp hh))]
  · intro hn
    exact absurd (Finset.mem_univ _) hn

/-- Σ (s/a)(t/b) = (Σ s t)/(a b). -/
theorem cos_sum (s t : Fin 32000 → ℝ) (a b : ℝ) :
    (∑ c : Fin 32000, (s c * (1 / a)) * (t c * (1 / b))) = (∑ c : Fin 32000, s c * t c) * (1 / (a * b)) := by
  rw [Finset.sum_mul]
  refine Finset.sum_congr rfl (fun c _ => ?_)
  rw [one_div, one_div, one_div, mul_inv]
  ring

/-! ### The reference's row formulas at a real row -/

theorem rowMax_coe (s : Fin 32000 → ℝ) :
    rowMax (fun c => ((s c : ℝ) : EReal)) = ((rM s : ℝ) : EReal) := by
  obtain ⟨c0, -, hc0⟩ := Finset.exists_mem_eq_sup' Finset.univ_nonempty s
  have hfold : (Finset.univ : Finset (Fin 32000)).fold max negInf (fun c => ((s c : ℝ) : EReal))
      = ((rM s : ℝ) : EReal) := by
    apply le_antisymm
    · rw [Finset.fold_max_le]
      refine ⟨by rw [negInf_eq]; exact bot_le, fun c _ => ?_⟩
      exact EReal.coe_le_coe_iff.mpr (Finset.le_sup' s (Finset.mem_univ c))
    · rw [Finset.le_fold_max]
      exact Or.inr ⟨c0, Finset.mem_univ c0, by unfold rM; rw [hc0]⟩
  unfold rowMax
  rw [hfold, negInf_eq]
  exact max_eq_right bot_le

theorem logp_coe (s : Fin 32000 → ℝ) (c : Fin 32000) :
    logp (fun i => ((s i : ℝ) : EReal)) c = (((s c - rM s) - Real.log (Z s (rM s)) : ℝ) : EReal) := by
  unfold logp
  rw [rowMax_coe, zero_eq, zero_add]
  have hsum : (∑ c' : Fin 32000, Ideal.exp (((s c' : ℝ) : EReal) - ((rM s : ℝ) : EReal)))
      = ((Z s (rM s) : ℝ) : EReal) := by
    unfold Z
    rw [coe_sum]
    refine Finset.sum_congr rfl (fun c' _ => ?_)
    rw [← EReal.coe_sub, Ideal.exp_coe]
  rw [hsum, Ideal.log_coe, if_neg (not_le.mpr (Z_pos s (rM s))), ← EReal.coe_sub, ← EReal.coe_sub]

theorem rHard_coe (s : Fin 32000 → ℝ) (ℓ : BitVec 32) :
    rHard (fun i => ((s i : ℝ) : EReal)) ℓ
      = ((if ℓ = ignoreIdx then 0 else -((s (colOf ℓ) - rM s) - Real.log (Z s (rM s))) : ℝ) : EReal) := by
  unfold rHard
  by_cases h : ℓ = ignoreIdx
  · rw [if_pos h, if_pos h, zero_eq']
  · rw [if_neg h, if_neg h, logp_coe, ← EReal.coe_neg]

theorem dv_coe (x : ℝ) : dv (x : EReal) = (x : EReal) := by
  unfold dv
  rw [one_eq', Ideal.div_coe one_ne_zero, ← EReal.coe_mul, div_one, mul_one]

theorem nrm_coe (s : Fin 32000 → ℝ) : nrm (fun i => ((s i : ℝ) : EReal)) = ((nR s : ℝ) : EReal) := by
  unfold nrm nR
  have hsum : (∑ c : Fin 32000, dv ((s c : ℝ) : EReal) * dv ((s c : ℝ) : EReal))
      = ((∑ c : Fin 32000, s c * s c : ℝ) : EReal) := by
    rw [coe_sum]
    refine Finset.sum_congr rfl (fun c _ => ?_)
    rw [dv_coe, ← EReal.coe_mul]
  rw [zero_eq, zero_add, hsum, Ideal.sqrt_coe, if_neg (not_lt.mpr (sq_sum_nonneg s)), eps_eq, coe_max]

theorem rCos_coe (s t : Fin 32000 → ℝ) :
    rCos (fun i => ((s i : ℝ) : EReal)) (fun i => ((t i : ℝ) : EReal))
      = ((∑ c : Fin 32000, (s c * (1 / nR s)) * (t c * (1 / nR t)) : ℝ) : EReal) := by
  unfold rCos
  rw [nrm_coe, nrm_coe, zero_eq, zero_add, coe_sum]
  refine Finset.sum_congr rfl (fun c _ => ?_)
  rw [dv_coe, dv_coe, Ideal.div_coe (nR_pos s).ne', Ideal.div_coe (nR_pos t).ne',
    ← EReal.coe_mul, ← EReal.coe_mul, ← EReal.coe_mul]

/-! ### The kernel's combination at six real numbers -/

theorem fin_coe (ℓ : BitVec 32) (m z g st ss tt : ℝ) (hz : 0 < z) (hss : 0 ≤ ss) (htt : 0 ≤ tt) :
    fin ℓ ⟨(m : EReal), (z : EReal), (g : EReal), (st : EReal), (ss : EReal), (tt : EReal)⟩
      = (((1 / 2 * (if ℓ = ignoreIdx then 0 else (m + Real.log z) - g)
            + 1 / 2 * (1 / 2 * (1 - st * (1 / (max (Real.sqrt ss) epsR * max (Real.sqrt tt) epsR)))))
          * (1 / 2048) : ℝ) : EReal) := by
  have ha : 0 < max (Real.sqrt ss) epsR := lt_max_of_lt_right epsR_pos
  have hb : 0 < max (Real.sqrt tt) epsR := lt_max_of_lt_right epsR_pos
  have hhard : (if ℓ = ignoreIdx then zero else ((m : EReal) + Ideal.log (z : EReal)) - (g : EReal))
      = (((if ℓ = ignoreIdx then 0 else (m + Real.log z) - g) : ℝ) : EReal) := by
    by_cases h : ℓ = ignoreIdx
    · rw [if_pos h, if_pos h, zero_eq']
    · rw [if_neg h, if_neg h, Ideal.log_coe, if_neg (not_le.mpr hz), ← EReal.coe_add, ← EReal.coe_sub]
  unfold fin
  show Ideal.div
    (half * (if ℓ = ignoreIdx then zero else ((m : EReal) + Ideal.log (z : EReal)) - (g : EReal))
      + half * (half * (one - Ideal.div (st : EReal)
          (max (Ideal.sqrt (ss : EReal)) eps * max (Ideal.sqrt (tt : EReal)) eps)))) n2048 = _
  rw [hhard, Ideal.sqrt_coe, if_neg (not_lt.mpr hss), Ideal.sqrt_coe, if_neg (not_lt.mpr htt), eps_eq,
    coe_max, coe_max, ← EReal.coe_mul, Ideal.div_coe (mul_pos ha hb).ne', n2048_eq,
    Ideal.div_coe (by norm_num : (2048 : ℝ) ≠ 0), half_eq, one_eq']
  simp only [← EReal.coe_mul, ← EReal.coe_sub, ← EReal.coe_add]

end MathRow

/-- A logit of real inputs is real. -/
theorem logit_real {X : Fin 2048 → Fin 512 → EReal} {W : Fin 32000 → Fin 512 → EReal} (hX : Finite2 X) (hW : Finite2 W)
    (r : Fin 2048) : ∃ s : Fin 32000 → ℝ, logit X W r = fun c => ((s c : ℝ) : EReal) := by
  choose x hx using hX
  choose w hw using hW
  refine ⟨fun c => ∑ k : Fin 512, x r k * w c k, ?_⟩
  funext c
  unfold logit
  rw [MathRow.coe_sum]
  refine Finset.sum_congr rfl (fun k _ => ?_)
  rw [hx, hw, EReal.coe_mul]

/-- For a row of real logits and an admitted label, the reference's two row terms are real numbers h and c,
    and the kernel's row is (h/2 + (1 - c)/4) / 2048. -/
theorem kRow_eq (s t : Fin 32000 → ℝ) (ℓ : BitVec 32) (hℓ : ℓ = ignoreIdx ∨ ℓ.toNat < 32000) :
    ∃ h c : ℝ, rHard (fun i => ((s i : ℝ) : EReal)) ℓ = (h : EReal)
      ∧ rCos (fun i => ((s i : ℝ) : EReal)) (fun i => ((t i : ℝ) : EReal)) = (c : EReal)
      ∧ kRow (fun i => ((s i : ℝ) : EReal)) (fun i => ((t i : ℝ) : EReal)) ℓ
          = ((((1 / 2 : ℝ) * h + (1 / 2) * ((1 / 2) * (1 - c))) / 2048 : ℝ) : EReal) := by
  refine ⟨_, _, MathRow.rHard_coe s ℓ, MathRow.rCos_coe s t, ?_⟩
  unfold kRow
  rw [stAt_closed]
  refine (MathRow.fin_coe ℓ _ _ _ _ _ _ (MathRow.Z_pos s (mK s)) (MathRow.sq_sum_nonneg s)
    (MathRow.sq_sum_nonneg t)).trans ?_
  -- the cross-entropy terms agree
  have hhard : (if ℓ = ignoreIdx then (0 : ℝ)
        else (mK s + Real.log (MathRow.Z s (mK s)))
          - ∑ c : Fin 32000, (if BitVec.ofNat 32 c.val = ℓ then s c else 0))
      = (if ℓ = ignoreIdx then 0 else -((s (colOf ℓ) - MathRow.rM s) - Real.log (MathRow.Z s (MathRow.rM s)))) := by
    by_cases h : ℓ = ignoreIdx
    · rw [if_pos h, if_pos h]
    · rw [if_neg h, if_neg h, MathRow.pick s ℓ (hℓ.resolve_left h)]
      have h1 := MathRow.lse_shift s (mK s)
      have h2 := MathRow.lse_shift s (MathRow.rM s)
      linarith
  rw [hhard, MathRow.cos_sum]
  congr 1
  unfold MathRow.nR
  ring

end Cert.Spec

end
-- ==== Proof.MathTotal.lean ====
/-
  The totals: with every row term real, the sum over the rows of (h/2 + (1 - c)/4)/2048 is
  half the mean of the h plus half of (half the sum of the 1 - c, over 2048): sums and the fixed factors commute.
-/
import proofs.«420721_j22101901705595_2_alg».proof.Proof.MathRow
import Mathlib.Algebra.BigOperators.Ring.Finset
import Mathlib.Algebra.BigOperators.Group.Finset.Basic
import Mathlib.Data.EReal.Operations

noncomputable section

namespace Cert.Spec

open Idealize.ShloMosaic

/-- A finite sum of real numbers, each read as an extended real, is the real sum read as an extended real. -/
private theorem sum_coe_real {ι : Type} (S : Finset ι) (f : ι → ℝ) :
    ∑ i ∈ S, ((f i : ℝ) : EReal) = ((∑ i ∈ S, f i : ℝ) : EReal) := by
  classical
  refine Finset.induction_on S ?_ ?_
  · rw [Finset.sum_empty, Finset.sum_empty, EReal.coe_zero]
  · intro a S ha ih
    rw [Finset.sum_insert ha, Finset.sum_insert ha, ih, EReal.coe_add]

/-- The real identity behind the totals: dividing each row term by 2048 and adding is the same as adding and
    then scaling, separately for the two kinds of term. -/
private theorem total_real (h c : Fin 2048 → ℝ) :
    ∑ r : Fin 2048, ((1 / 2 : ℝ) * h r + (1 / 2) * ((1 / 2) * (1 - c r))) / 2048
      = (1 / 2 : ℝ) * ((∑ r : Fin 2048, h r) * (1 / 2048))
        + (1 / 2 : ℝ) * (((1 / 2 : ℝ) * ∑ r : Fin 2048, (1 - c r)) * (1 / 2048)) := by
  rw [Finset.sum_mul, Finset.mul_sum, Finset.mul_sum, Finset.sum_mul, Finset.mul_sum, ← Finset.sum_add_distrib]
  refine Finset.sum_congr rfl (fun r _ => ?_)
  ring

theorem total_eq {X : Fin 2048 → Fin 512 → EReal} {W : Fin 32000 → Fin 512 → EReal} {X' : Fin 2048 → Fin 512 → EReal}
    {W' : Fin 32000 → Fin 512 → EReal} {L : Fin 2048 → BitVec 32}
    (hX : Finite2 X) (hW : Finite2 W) (hX' : Finite2 X') (hW' : Finite2 W') (hL : LabelsOk L) :
    kTotal X W X' W' L = rTotal X W X' W' L := by
  -- every logit row is a row of real numbers
  choose s hs using fun r => logit_real hX hW r
  choose t ht using fun r => logit_real hX' hW' r
  -- every row's two reference terms are real, and the kernel's row is their fixed combination
  choose h c hh hc hk using fun r => kRow_eq (s r) (t r) (L r) (hL r)
  have e2048 : (2048 : ℝ) ≠ 0 := by norm_num
  have h1 : ∀ r, (1 : EReal) - ((c r : ℝ) : EReal) = ((1 - c r : ℝ) : EReal) := fun r => by
    rw [EReal.coe_sub, EReal.coe_one]
  unfold kTotal rTotal
  simp only [hs, ht, hh, hc, hk]
  rw [zero_eq, one_eq, half_eq, n2048_eq, Ideal.div_coe e2048, Ideal.div_coe e2048]
  simp only [h1, sum_coe_real, zero_add]
  rw [← EReal.coe_mul, ← EReal.coe_mul, ← EReal.coe_mul, ← EReal.coe_mul, ← EReal.coe_mul, ← EReal.coe_add,
    EReal.coe_eq_coe_iff]
  exact total_real h c

end Cert.Spec

end
-- ==== Proof.PreDecode.lean ====
/-
  What the precondition says of the five arguments: it is a conjunction of five "all entries satisfy" tests,
  four of |x| < +∞ on the float arrays (so every entry is a real number) and one on the labels
  (each is -100, or at least 0 and below 32000 as a signed word, which for a 32-bit word means its unsigned
  value is below 32000).
-/
import proofs.«420721_j22101901705595_2_alg».proof.Pre_finite_inputs
import proofs.«420721_j22101901705595_2_alg».proof.Proof.Consts
import Idealize.ShloMosaic.Lib.ReduceAll
import Idealize.ShloMosaic.Lib.StableHlo.Predicate

noncomputable section

namespace Cert.PreDecode

open Idealize.ShloMosaic Cert.Pre_finite_inputs

/-- The scalar shape has one index. -/
instance : Subsingleton S_.Idx := ⟨fun a b => funext fun d => d.elim0⟩

/-- The pattern 0x7F800000 denotes +∞. -/
theorem posInf_eq : Ideal.ofBits .f32 0x7F800000#32 = (⊤ : EReal) := by simp [Ideal.ofBits, Ideal.ieee]

/-- An extended real whose absolute value max x (-x) lies below +∞ is a real number. -/
theorem real_of_abs_lt_top (x : EReal) (hx : max x (-x) < ⊤) : ∃ r : ℝ, x = (r : EReal) := by
  obtain ⟨h1, h2⟩ := max_lt_iff.1 hx
  induction x using EReal.rec with
  | bot => exact absurd h2 (by simp)
  | coe r => exact ⟨r, rfl⟩
  | top => exact absurd h1 (lt_irrefl _)

/-- One float test: if "all entries satisfy |x| < +∞" came out 1, every entry is a real number. -/
theorem finite_of_all {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi (cmpf .olt (Host.absf x) (broadcastInDim s ![] hb (constant (F := Ideal) S_ .f32 0x7F800000#32)))
      (constantI S_ 1 1#1) hr h0 ValueIdx.ix0 = 1#1) (i : s.Idx) : ∃ r : ℝ, x i = (r : EReal) := by
  have hi := Host.reduce_andi_all _ _ hr h0 _ e i
  change Ideal.cmp .olt (max (x i) (-(x i))) (Ideal.ofBits .f32 0x7F800000#32) = 1#1 at hi
  rw [posInf_eq] at hi
  simp only [Ideal.cmp, StableHlo.Predicate.ofBool_eq_one_iff, decide_eq_true_eq] at hi
  exact real_of_abs_lt_top _ hi

/-- A 32-bit word that is at least 0 and below 32000 as a signed number is below 32000 as an unsigned one. -/
theorem toNat_lt_of_signed_range (l : BitVec 32) (h1 : (0#32).toInt ≤ l.toInt) (h2 : l.toInt < (32000#32).toInt) :
    l.toNat < 32000 := by
  have e0 : (0#32 : BitVec 32).toInt = 0 := by decide
  have e1 : (32000#32 : BitVec 32).toInt = 32000 := by decide
  have e := BitVec.toInt_eq_toNat_cond l
  rw [e0] at h1
  rw [e1] at h2
  split at e <;> omega

/-- The labels test: if "all labels are -100, or at least 0 and below 32000" came out 1, every label is the
    ignore index or a class index. -/
theorem labels_of_all (hb : S_.BroadcastsInDim S2048 (![] : Fin 0 → Fin S2048.rank)) (hr : S2048.ReducesTo [0] S_)
    (h0 : 0 < S_.numel) (a : IVec S2048 32)
    (e : Host.reduce IntOp.andi
        (ori (cmpi .eq a (broadcastInDim S2048 ![] hb (constantI S_ 32 4294967196#32)))
          (andi (cmpi .sge a (broadcastInDim S2048 ![] hb (constantI S_ 32 0#32)))
            (cmpi .slt a (broadcastInDim S2048 ![] hb (constantI S_ 32 32000#32)))))
        (constantI S_ 1 1#1) hr h0 ValueIdx.ix0 = 1#1) (r : Fin 2048) :
    a (ValueIdx.ix1 r) = Cert.Spec.ignoreIdx ∨ (a (ValueIdx.ix1 r)).toNat < 32000 := by
  have hi := Host.reduce_andi_all _ _ hr h0 _ e (ValueIdx.ix1 r)
  change IntOp.ori (IntOp.cmpi .eq (a (ValueIdx.ix1 r)) 4294967196#32)
    (IntOp.andi (IntOp.cmpi .sge (a (ValueIdx.ix1 r)) 0#32) (IntOp.cmpi .slt (a (ValueIdx.ix1 r)) 32000#32)) = 1#1 at hi
  rcases IntOp.ori_eq_one.1 hi with h | h
  · exact Or.inl (IntOp.cmpi_eq.1 h)
  · obtain ⟨h1, h2⟩ := IntOp.andi_eq_one.1 h
    exact Or.inr (toNat_lt_of_signed_range _ (IntOp.cmpi_sge.1 h1) (IntOp.cmpi_slt.1 h2))

theorem decode [Cert.Pre_finite_inputs.Facts]
    (a0 : FVec Ideal S2048x512 .f32) (a1 : FVec Ideal S32000x512 .f32) (a2 : FVec Ideal S2048x512 .f32)
    (a3 : FVec Ideal S32000x512 .f32) (a4 : IVec S2048 32)
    (h : Cert.Pre_finite_inputs.fn (F := Ideal) a0 a1 a2 a3 a4 = fun _ => 1#1) :
    Cert.Spec.Finite2 (Cert.Spec.mat a0) ∧ Cert.Spec.Finite2 (Cert.Spec.mat a1) ∧ Cert.Spec.Finite2 (Cert.Spec.mat a2)
      ∧ Cert.Spec.Finite2 (Cert.Spec.mat a3) ∧ Cert.Spec.LabelsOk (Cert.Spec.vec1 a4) := by
  have h0 := congrFun h ValueIdx.ix0
  change IntOp.andi (IntOp.andi (IntOp.andi (IntOp.andi _ _) _) _) _ = 1#1 at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun r k => ?_, fun r k => ?_, fun r k => ?_, fun r k => ?_, fun r => ?_⟩
  · exact finite_of_all _ _ _ a0 e0 (ValueIdx.ix2 r k)
  · exact finite_of_all _ _ _ a1 e1 (ValueIdx.ix2 r k)
  · exact finite_of_all _ _ _ a2 e2 (ValueIdx.ix2 r k)
  · exact finite_of_all _ _ _ a3 e3 (ValueIdx.ix2 r k)
  · exact labels_of_all _ _ _ a4 e4 r

end Cert.PreDecode

end
-- ==== Proof.lean ====
/-
  A fused linear / cross-entropy / cosine-similarity distillation loss: student and teacher logits are products
  of 2048 × 512 inputs with 32000 × 512 weights; each row contributes half its cross-entropy against an integer
  label (nothing for the ignore index -100) and a quarter of one minus the cosine of its two logit rows, and the
  result is the sum over the rows divided by 2048.

  The kernel never holds a whole row of logits: it walks the 32000 columns in 25 chunks, carrying per row a
  running maximum, a sum of exponentials rescaled when the maximum grows, the label's logit picked by comparing
  column numbers, and three plain sums; the reference computes the whole-row log-softmax and normalises the rows.
  Over the extended reals, with every float input finite and every label -100 or in [0, 32000), the two agree:
  log-sum-exp does not depend on the shift it is computed with (so neither the chunking nor the kernel's finite
  start value of the maximum matters), the comparison picks exactly the label's column, and the normalised
  product's sum is the products' sum over the norms' product. The label condition is needed: on a label such as
  -5 the reference's indexing wraps to column 31995 while the kernel's comparison matches no column.

  The kernels' two frames are the generated ones; the reference's is its run with the result dropped; nothing was rewritten by
  the idealization, so there is nothing to preserve.
-/
import proofs.«420721_j22101901705595_2_alg».proof.Defs
import proofs.«420721_j22101901705595_2_alg».proof.Proof.Gen.Kernel
import proofs.«420721_j22101901705595_2_alg».proof.Proof.Gen.Kernel.Frame
import proofs.«420721_j22101901705595_2_alg».proof.Proof.Gen.KernelIdeal
import proofs.«420721_j22101901705595_2_alg».proof.Proof.Gen.KernelIdeal.Frame
import proofs.«420721_j22101901705595_2_alg».proof.Proof.Gen.ReferenceIdeal
import proofs.«420721_j22101901705595_2_alg».proof.Proof.Gen.Pre_finite_inputs
import proofs.«420721_j22101901705595_2_alg».proof.Proof.KFinal
import proofs.«420721_j22101901705595_2_alg».proof.Proof.RefRun
import proofs.«420721_j22101901705595_2_alg».proof.Proof.RefValue
import proofs.«420721_j22101901705595_2_alg».proof.Proof.MathTotal
import proofs.«420721_j22101901705595_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both programs end at the same total: the kernel's run gives the chunked walk's total, the reference's run
    its whole-row total of arguments that agree, and under the precondition the two totals are equal. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := Cert.PreDecode.decode _ _ _ _ _ (hpre c)
  rw [Cert.ReferenceIdeal.ReadP.val_main_v42_eq, (hagree c).1, (hagree c).2.1, (hagree c).2.2.1, (hagree c).2.2.2.1,
    (hagree c).2.2.2.2]
  rw [Cert.ReferenceIdeal.RefValue.result_eq _ _ _ _ _ h4]
  funext _
  exact (Cert.Spec.total_eq h0 h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
